-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S256x10000 : Shape := ⟨2, ![256, 10000]⟩
abbrev S256x128 : Shape := ⟨2, ![256, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .local _ .vmem, ⟨0, _⟩ => ⟨S10000x128, .f32⟩
  | .local _ .vmem, ⟨1, _⟩ => ⟨S256x10000, .f32⟩
  | .local _ .vmem, ⟨2, _⟩ => ⟨S256x10000, .f32⟩
  | .local _ .vmem, ⟨3, _⟩ => ⟨S256x128, .f32⟩
  | .local _ .vmem, ⟨4, _⟩ => ⟨S256x128, .f32⟩
  | .local _ .vmem, ⟨5, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S256x10000_S256x10000_0_0 : ∀ a, (![0, 0] : Fin 2 → Nat) a + S256x10000.size a ≤ S256x10000.size a
  h_S256x10000 : 0 < S256x10000.numel
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x10000.size a < S10000x10000.size a
  hwx0_1 : ∀ i : grid0.Coords, EltTy.bits .f32 = 32 ∨ (Rect.unit (s := S10000x10000) (fun a => cc0_transform_1 i a * S256x10000.size a) (fun a => (Pipeline.Clip.of (cc0_transform_1 i a) (S256x10000.size a) (S10000x10000.size a)).extent (S256x10000.size a)) fun a => Pipeline.Clip.inb (Pipeline.Clip.ok_of (hstart0_1 i a))).WholeWords (EltTy.packing .f32)
  hwxs0_1 : ∀ i : grid0.Coords, EltTy.bits .f32 = 32 ∨ (Rect.unit (s := S256x10000) (fun _ => 0) (fun a => (Pipeline.Clip.of (cc0_transform_1 i a) (S256x10000.size a) (S10000x10000.size a)).extent (S256x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x128.size a < S10000x128.size a
  hwx0_2 : ∀ i : grid0.Coords, EltTy.bits .f32 = 32 ∨ (Rect.unit (s := S10000x128) (fun a => cc0_transform_2 i a * S256x128.size a) (fun a => (Pipeline.Clip.of (cc0_transform_2 i a) (S256x128.size a) (S10000x128.size a)).extent (S256x128.size a)) fun a => Pipeline.Clip.inb (Pipeline.Clip.ok_of (hstart0_2 i a))).WholeWords (EltTy.packing .f32)
  hwxs0_2 : ∀ i : grid0.Coords, EltTy.bits .f32 = 32 ∨ (Rect.unit (s := S256x128) (fun _ => 0) (fun a => (Pipeline.Clip.of (cc0_transform_2 i a) (S256x128.size a) (S10000x128.size a)).extent (S256x128.size a)) fun a => (Nat.zero_add _).trans_le (Pipeline.Clip.extent_le (Pipeline.Clip.ok_of (hstart0_2 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S256x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S256x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x1, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S_, .f32⟩
  | .hbm, ⟨43, _⟩ => ⟨S_, .f32⟩
  | .hbm, ⟨44, _⟩ => ⟨S10000x1, .f32⟩
  | .hbm, ⟨45, _⟩ => ⟨S10000x1, .f32⟩
  | .hbm, ⟨46, _⟩ => ⟨S_, .f32⟩
  | .hbm, ⟨47, _⟩ => ⟨S10000x1, .f32⟩
  | .hbm, ⟨48, _⟩ => ⟨S10000x1, .f32⟩
  | .hbm, ⟨49, _⟩ => ⟨S10000x1, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S10000, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S_, .f32⟩
  | .hbm, ⟨64, _⟩ => ⟨S10000x1, .f32⟩
  | .hbm, ⟨65, _⟩ => ⟨S10000x1, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x1, .f32⟩
  | .hbm, ⟨73, _⟩ => ⟨S10000x1, .i1⟩
  | .hbm, ⟨74, _⟩ => ⟨S10000x128, .i1⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call3_v0 : Ref sig .tc := ⟨.hbm, 37, rfl⟩
abbrev main_call3_cst : Ref sig .tc := ⟨.hbm, 38, rfl⟩
abbrev main_call3_v1 : Ref sig .tc := ⟨.hbm, 39, rfl⟩
abbrev main_call3_v2 : Ref sig .tc := ⟨.hbm, 40, rfl⟩
abbrev main_v18 : Ref sig .tc := ⟨.hbm, 41, rfl⟩
abbrev main_cst_5 : Ref sig .tc := ⟨.hbm, 42, rfl⟩
abbrev main_call4_v0 : Ref sig .tc := ⟨.hbm, 43, rfl⟩
abbrev main_call4_v1 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call5_v0 : Ref sig .tc := ⟨.hbm, 57, rfl⟩
abbrev main_call5_cst : Ref sig .tc := ⟨.hbm, 58, rfl⟩
abbrev main_call5_v1 : Ref sig .tc := ⟨.hbm, 59, rfl⟩
abbrev main_call5_v2 : Ref sig .tc := ⟨.hbm, 60, rfl⟩
abbrev main_v29 : Ref sig .tc := ⟨.hbm, 61, rfl⟩
abbrev main_cst_8 : Ref sig .tc := ⟨.hbm, 62, rfl⟩
abbrev main_call6_v0 : Ref sig .tc := ⟨.hbm, 63, rfl⟩
abbrev main_call6_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_call7_v0 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBody.lean ====
import proofs.«111283_g60404420051467_cont_9to1_m_1209_15_alg».proof.Proof.Gen.Kernel.Launch
import proofs.«111283_g60404420051467_cont_9to1_m_1209_15_alg».proof.Proof.Gen.Kernel.Skeleton
import proofs.«111283_g60404420051467_cont_9to1_m_1209_15_alg».proof.Proof.Gen.Kernel.Points
import proofs.«111283_g60404420051467_cont_9to1_m_1209_15_alg».proof.Proof.Gen.Kernel.Frame
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev isFirst (i : grid0.Coords) : Prop :=
  (Scalar.cmpi .ne (Scalar.extui (Scalar.cmpi .eq (BitVec.ofNat 32 (i 0).val) 0#32)) 0#32) = 1#1

theorem zeros2 : (![0, 0] : Fin 2 → Nat) = fun _ => 0 := funext fun a => by fin_cases a <;> rfl

/-- One store through the whole-shape rectangle at zero offsets leaves its payload, whatever the buffer held. -/
theorem read_whole_write {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- The body at a point after the first: the scratch is only read. The block of the first operand and the scratch
    are handed back as found; the result's staging buffer ends holding the point's payload of the second operand's
    block and the scratch. -/
theorem body_rest (c : Dev nD) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x128 .f32) (harg3 : arg3.IsWhole)
    (arg4 : Memref sig .tc .vmem S10000x128 .f32) (harg4 : arg4.IsWhole)
    (hc : ¬ isFirst i)
    (x0 : Vec F S10000x128 .f32) (x1 : Vec F S256x10000 .f32) (xs : Vec F S10000x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay3 x1 xs) ∗ owns (c : Thread nD τ) arg4 fullShare xs) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  sl_exec (disch := first | exact hc)
  sl_step
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    rw [read_whole_write _ _ zeros2]
    simp only [View.readAt_eq_ld, hf1, hf4, View.ld_unit_zero (S := S256x10000) zeros2, View.ld_unit_zero (S := S10000x128) zeros2]
  · iexists _; isplitr; · ipureintro; exact hf4
    iexact H4

/-- The body at the first point: the scratch, whatever it held, is stored whole with the first operand's block's
    payload and then read back; the result's staging buffer ends holding the point's payload of the second
    operand's block and that scratch. -/
theorem body_first (c : Dev nD) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x128 .f32) (harg3 : arg3.IsWhole)
    (arg4 : Memref sig .tc .vmem S10000x128 .f32) (harg4 : arg4.IsWhole)
    (hc : isFirst i)
    (x0 : Vec F S10000x128 .f32) (x1 : Vec F S256x10000 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay3 x1 (k0_pay2 x0)) ∗ owns (c : Thread nD τ) arg4 fullShare (k0_pay2 x0)) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%d3, %f3, -, H3⟩, ⟨%d4, %f4, -, H4⟩, Hk⟩
  obtain rfl := harg1.eq_unread hf0; obtain rfl := harg2.eq_unread hf1
  sl_exec (disch := first | exact hc)
  sl_step
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    rw [read_whole_write _ _ zeros2]
    sl_unfold_words
    simp only [View.readAt_eq_ld, hf0, hf1, View.ld_unit_zero (S := S256x10000) zeros2, View.ld_unit_zero (S := S10000x128) zeros2,
      View.readCov_unit_zero (S := S10000x128) _ zeros2]
  · iexists _; isplitr
    swap; · iexact H4
    ipureintro
    sl_unfold_words
    rw [read_whole_write _ _ zeros2]
    simp only [View.readAt_eq_ld, hf0, View.ld_unit_zero (S := S10000x128) zeros2]

end Cert.Kernel.Body

end
-- ==== Proof.BitsFrame.lean ====
import proofs.«111283_g60404420051467_cont_9to1_m_1209_15_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and the scratch. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev scM : Memref sig .tc .vmem S10000x128 .f32 := Memref.whole cc0_scratch0

/-- The region's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The branch is taken at the first point only. -/
theorem isFirst_iff : ∀ t : Fin cfg0.N, isFirst (grid0.coords t) ↔ t.val = 0 :=
  (by decide +kernel : ∀ t : Fin grid0.N, isFirst (grid0.coords t) ↔ t.val = 0)

/-- The windows whose staging contents the frame says nothing about: the two whose edge blocks are cut. -/
abbrev fgt : Fin cfg0.W → Bool := fun | 0 => false | 1 => true | 2 => true | ⟨_ + 3, h⟩ => absurd h (Nat.not_lt.2 (Nat.le_add_left _ _))

/-- Proof data for the frame alone: the arrays as launched; the first operand's staging buffer keeps its block (the
    body only reads it); the two cut windows' buffers at contents nobody names; the scratch at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.arbitrary _
    | ⟨2, _⟩ => fun _ => Classical.arbitrary _
  Φ _ := Pipeline.ΦA spec0 c
  q _ := fullShare
  owed _ := 0

theorem fA_eq (c : Dev nD) (w : Fin cfg0.W) : (fdats m 0 c).A w = V m c (Pipeline.arrRef spec0 w) := by dsimp only [fdats]
theorem fafter0 (c : Dev nD) (t : Fin cfg0.N) : (fdats m 0 c).after 0 t = iblk m c 0 t := by dsimp only [fdats]
theorem fbefore0 (c : Dev nD) (t : Fin cfg0.N) (d) : (fdats m 0 c).before 0 t d = iblk m c 0 t :=
  before0_0_of m (fdats m 0 c) (fA_eq m c 0) (fafter0 m c) t d

/-- The body at every point, whatever the cut windows' buffers and the scratch hold: it runs, leaves the first
    operand's buffer as it found it, and hands the others back at some contents. -/
theorem fbody_obligation (c : Dev nD) :
    BodyObligationLoose (fdats (F := F) m 0 c) (defs₀ (F := F)) Variants.none () Set.univ fgt := fun t => by
  rw [bigSep_W0, bigSep_W0]
  simp only [fgt, fbefore0 m c t]
  rw [show (fdats m 0 c).Φ t.succ = Pipeline.ΦA spec0 c from rfl, show (fdats m 0 c).Φ t.castSucc = Pipeline.ΦA spec0 c from rfl,
    fafter0, PhiA_eq, show (fdats m 0 c).owesAt () t.succ = (fdats m 0 c).owesAt () t.castSucc from rfl]
  show _ ⊢ wp frame (wpE (defs₀ (F := F)) Variants.none c none) Set.univ (bodyAt0 t) _
  unfold bodyAt0
  iintro ⟨⟨⟨%ds, HS⟩, Hg⟩, Ho, ⟨%d0, H0⟩, ⟨%X1, H1⟩, ⟨%X2, H2⟩⟩
  by_cases h0 : isFirst (grid0.coords t)
  · iapply (body_first (F := F) c (grid0.coords t) (ms0 t) (hs0 t) (ms1 t) (hs1 t) (ms2 t) (hs2 t) scM (Memref.isWhole_whole _)
      h0 (iblk m c 0 t) X1 Set.univ _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2
  · iapply (body_rest (F := F) c (grid0.coords t) (ms0 t) (hs0 t) (ms1 t) (hs1 t) (ms2 t) (hs2 t) scM (Memref.isWhole_whole _)
      h0 (iblk m c 0 t) X1 ds Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2

set_option backward.isDefEq.respectTransparency.types false in
/-- From any memory with zero counters every weakly fair execution of @main terminates, no fault, and the pipeline's
    input arrays end as they were launched. -/
theorem frun : θ_run defs (onTc (τ := τ) (main (F := F))) (s₀ m ρ)
    (RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody_obligation m c).toRForget)
    (hshare := fun c => ((fdats m 0 c).toRForget fgt).share_full fun _ => rfl) (howed := fun _ _ => rfl)
    (V := V m) (hmain := hmain m Variants.none) (hA := fun c w => fA_eq m c w) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.arr_in c 0 rfl).trans ((fA_eq m c 0).trans (V_main_arg0 m c)),
      (h.arr_in c 1 rfl).trans ((fA_eq m c 1).trans (V_main_arg1 m c))⟩) (frun m ρ)

end Cert.Kernel.Body

end
-- ==== Proof.IdealBody.lean ====
import proofs.«111283_g60404420051467_cont_9to1_m_1209_15_alg».proof.Proof.Gen.KernelIdeal.Launch
import proofs.«111283_g60404420051467_cont_9to1_m_1209_15_alg».proof.Proof.Gen.KernelIdeal.Skeleton
import proofs.«111283_g60404420051467_cont_9to1_m_1209_15_alg».proof.Proof.Gen.KernelIdeal.Points
import proofs.«111283_g60404420051467_cont_9to1_m_1209_15_alg».proof.Proof.Gen.KernelIdeal.Frame
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev isFirst (i : grid0.Coords) : Prop :=
  (Scalar.cmpi .ne (Scalar.extui (Scalar.cmpi .eq (BitVec.ofNat 32 (i 0).val) 0#32)) 0#32) = 1#1

theorem zeros2 : (![0, 0] : Fin 2 → Nat) = fun _ => 0 := funext fun a => by fin_cases a <;> rfl

/-- One store through the whole-shape rectangle at zero offsets leaves its payload, whatever the buffer held. -/
theorem read_whole_write {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- The body at a point after the first: the scratch is only read. The block of the first operand and the scratch
    are handed back as found; the result's staging buffer ends holding the point's payload of the second operand's
    block and the scratch. -/
theorem body_rest (c : Dev nD) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x128 .f32) (harg3 : arg3.IsWhole)
    (arg4 : Memref sig .tc .vmem S10000x128 .f32) (harg4 : arg4.IsWhole)
    (hc : ¬ isFirst i)
    (x0 : Vec F S10000x128 .f32) (x1 : Vec F S256x10000 .f32) (xs : Vec F S10000x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay3 x1 xs) ∗ owns (c : Thread nD τ) arg4 fullShare xs) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  sl_exec (disch := first | exact hc)
  sl_step
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    rw [read_whole_write _ _ zeros2]
    simp only [View.readAt_eq_ld, hf1, hf4, View.ld_unit_zero (S := S256x10000) zeros2, View.ld_unit_zero (S := S10000x128) zeros2]
  · iexists _; isplitr; · ipureintro; exact hf4
    iexact H4

/-- The body at the first point: the scratch, whatever it held, is stored whole with the first operand's block's
    payload and then read back; the result's staging buffer ends holding the point's payload of the second
    operand's block and that scratch. -/
theorem body_first (c : Dev nD) (i : grid0.Coords)
    (arg1 : Memref sig .tc .vmem S10000x128 .f32) (harg1 : arg1.IsWhole)
    (arg2 : Memref sig .tc .vmem S256x10000 .f32) (harg2 : arg2.IsWhole)
    (arg3 : Memref sig .tc .vmem S256x128 .f32) (harg3 : arg3.IsWhole)
    (arg4 : Memref sig .tc .vmem S10000x128 .f32) (harg4 : arg4.IsWhole)
    (hc : isFirst i)
    (x0 : Vec F S10000x128 .f32) (x1 : Vec F S256x10000 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay3 x1 (k0_pay2 x0)) ∗ owns (c : Thread nD τ) arg4 fullShare (k0_pay2 x0)) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%d3, %f3, -, H3⟩, ⟨%d4, %f4, -, H4⟩, Hk⟩
  obtain rfl := harg1.eq_unread hf0; obtain rfl := harg2.eq_unread hf1
  sl_exec (disch := first | exact hc)
  sl_step
  iapply Hk
  isplitl [H0]
  · iexists _; isplitr; · ipureintro; exact hf0
    iexact H0
  isplitl [H1]
  · iexists _; isplitr; · ipureintro; exact hf1
    iexact H1
  isplitl [H3]
  · iexists _; isplitr
    swap; · iexact H3
    ipureintro
    rw [read_whole_write _ _ zeros2]
    sl_unfold_words
    simp only [View.readAt_eq_ld, hf0, hf1, View.ld_unit_zero (S := S256x10000) zeros2, View.ld_unit_zero (S := S10000x128) zeros2,
      View.readCov_unit_zero (S := S10000x128) _ zeros2]
  · iexists _; isplitr
    swap; · iexact H4
    ipureintro
    sl_unfold_words
    rw [read_whole_write _ _ zeros2]
    simp only [View.readAt_eq_ld, hf0, View.ld_unit_zero (S := S10000x128) zeros2]

end Cert.KernelIdeal.Body

end
-- ==== Proof.IdealFrame.lean ====
import proofs.«111283_g60404420051467_cont_9to1_m_1209_15_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and the scratch. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev scM : Memref sig .tc .vmem S10000x128 .f32 := Memref.whole cc0_scratch0

/-- The region's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The branch is taken at the first point only. -/
theorem isFirst_iff : ∀ t : Fin cfg0.N, isFirst (grid0.coords t) ↔ t.val = 0 :=
  (by decide +kernel : ∀ t : Fin grid0.N, isFirst (grid0.coords t) ↔ t.val = 0)

/-- The windows whose staging contents the frame says nothing about: the two whose edge blocks are cut. -/
abbrev fgt : Fin cfg0.W → Bool := fun | 0 => false | 1 => true | 2 => true | ⟨_ + 3, h⟩ => absurd h (Nat.not_lt.2 (Nat.le_add_left _ _))

/-- Proof data for the frame alone: the arrays as launched; the first operand's staging buffer keeps its block (the
    body only reads it); the two cut windows' buffers at contents nobody names; the scratch at anything throughout. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.arbitrary _
    | ⟨2, _⟩ => fun _ => Classical.arbitrary _
  Φ _ := Pipeline.ΦA spec0 c
  q _ := fullShare
  owed _ := 0

theorem fA_eq (c : Dev nD) (w : Fin cfg0.W) : (fdats m 0 c).A w = V m c (Pipeline.arrRef spec0 w) := by dsimp only [fdats]
theorem fafter0 (c : Dev nD) (t : Fin cfg0.N) : (fdats m 0 c).after 0 t = iblk m c 0 t := by dsimp only [fdats]
theorem fbefore0 (c : Dev nD) (t : Fin cfg0.N) (d) : (fdats m 0 c).before 0 t d = iblk m c 0 t :=
  before0_0_of m (fdats m 0 c) (fA_eq m c 0) (fafter0 m c) t d

/-- The body at every point, whatever the cut windows' buffers and the scratch hold: it runs, leaves the first
    operand's buffer as it found it, and hands the others back at some contents. -/
theorem fbody_obligation (c : Dev nD) :
    BodyObligationLoose (fdats (F := F) m 0 c) (defs₀ (F := F)) Variants.none () Set.univ fgt := fun t => by
  rw [bigSep_W0, bigSep_W0]
  simp only [fgt, fbefore0 m c t]
  rw [show (fdats m 0 c).Φ t.succ = Pipeline.ΦA spec0 c from rfl, show (fdats m 0 c).Φ t.castSucc = Pipeline.ΦA spec0 c from rfl,
    fafter0, PhiA_eq, show (fdats m 0 c).owesAt () t.succ = (fdats m 0 c).owesAt () t.castSucc from rfl]
  show _ ⊢ wp frame (wpE (defs₀ (F := F)) Variants.none c none) Set.univ (bodyAt0 t) _
  unfold bodyAt0
  iintro ⟨⟨⟨%ds, HS⟩, Hg⟩, Ho, ⟨%d0, H0⟩, ⟨%X1, H1⟩, ⟨%X2, H2⟩⟩
  by_cases h0 : isFirst (grid0.coords t)
  · iapply (body_first (F := F) c (grid0.coords t) (ms0 t) (hs0 t) (ms1 t) (hs1 t) (ms2 t) (hs2 t) scM (Memref.isWhole_whole _)
      h0 (iblk m c 0 t) X1 Set.univ _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2
  · iapply (body_rest (F := F) c (grid0.coords t) (ms0 t) (hs0 t) (ms1 t) (hs1 t) (ms2 t) (hs2 t) scM (Memref.isWhole_whole _)
      h0 (iblk m c 0 t) X1 ds Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2

set_option backward.isDefEq.respectTransparency.types false in
/-- From any memory with zero counters every weakly fair execution of @main terminates, no fault, and the pipeline's
    input arrays end as they were launched. -/
theorem frun : θ_run defs (onTc (τ := τ) (main (F := F))) (s₀ m ρ)
    (RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody_obligation m c).toRForget)
    (hshare := fun c => ((fdats m 0 c).toRForget fgt).share_full fun _ => rfl) (howed := fun _ _ => rfl)
    (V := V m) (hmain := hmain m Variants.none) (hA := fun c w => fA_eq m c w) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.arr_in c 0 rfl).trans ((fA_eq m c 0).trans (V_main_arg0 m c)),
      (h.arr_in c 1 rfl).trans ((fA_eq m c 1).trans (V_main_arg1 m c))⟩) (frun m ρ)

end Cert.KernelIdeal.Body

end
-- ==== Proof.Spec.lean ====
/-
  What the kernel and the reference both compute, row by row, on the extended reals.

  A point x of the Poincaré ball is sent to the tangent space at the origin by the logarithmic map
  x · artanh(‖x‖) / ‖x‖; the tangent vectors are aggregated by the dense product with the adjacency matrix; the
  aggregate u is sent back by the exponential map tanh(‖u‖) · u / ‖u‖ and projected onto the ball of radius
  0.996. Every norm is clamped below by 1e-15 and the artanh's argument is clipped to ±(1 − 2⁻²³).
  The kernel writes the last two steps as ONE rescaling u · min(tanh ‖u‖, 0.996) / ‖u‖ (the norm of the
  exponential map's value IS tanh ‖u‖); the reference computes the exponential map, takes its norm again,
  and selects. The two are the same function of finite inputs: SpecLaws.lean.
-/
import Idealize.ShloMosaic.PureOps.Ideal
import Mathlib.Algebra.BigOperators.Group.Finset.Basic

noncomputable section

namespace Cert.HypAgg

open Idealize.ShloMosaic

/-- The least norm admitted: the float 1e-15. -/
abbrev minNorm : EReal := Ideal.ofBits .f32 0x26901D7D#32
/-- The radius the result is projected to: the float 0.996. -/
abbrev ballRadius : EReal := Ideal.ofBits .f32 0x3F7EF9DB#32
/-- The bounds the artanh's argument is clipped to: ∓(1 − 2⁻²³). -/
abbrev clipLo : EReal := Ideal.ofBits .f32 0xBF7FFFFE#32
abbrev clipHi : EReal := Ideal.ofBits .f32 0x3F7FFFFE#32
/-- One half. -/
abbrev half : EReal := Ideal.ofBits .f32 0x3F000000#32

/-- An extended real that is a real number (neither infinity). -/
def IsReal (x : EReal) : Prop := ∃ r : ℝ, x = (r : EReal)

/-- The Euclidean norm of a row, clamped below by `minNorm`. -/
def rowNorm {n : ℕ} (v : Fin n → EReal) : EReal := max (Ideal.sqrt (∑ k, v k * v k)) minNorm

/-- artanh t = (log(1 + t) − log(1 − t)) / 2 of the argument clipped into (−1, 1). -/
def artanhClipped (t : EReal) : EReal :=
  half * (Ideal.log1p (min clipHi (max clipLo t)) - Ideal.log1p (-(min clipHi (max clipLo t))))

/-- The logarithmic map at the origin, on one row, as the kernel associates it: x · (artanh ‖x‖ / ‖x‖). -/
def logMapRow (x : Fin 128 → EReal) (k : Fin 128) : EReal :=
  x k * Ideal.div (artanhClipped (rowNorm x)) (rowNorm x)

/-- The same as the reference associates it: (x / ‖x‖) · artanh ‖x‖. -/
def logMapRowRef (x : Fin 128 → EReal) (k : Fin 128) : EReal :=
  Ideal.div (x k) (rowNorm x) * artanhClipped (rowNorm x)

/-- One row of the aggregation: the row of the adjacency matrix against the tangent vectors. -/
def aggRow (a : Fin 10000 → EReal) (xt : Fin 10000 → Fin 128 → EReal) (j : Fin 128) : EReal :=
  ∑ k, a k * xt k j

/-- Exponential map and projection in one rescaling (the kernel): u · (min(tanh ‖u‖, 0.996) / ‖u‖). -/
def expProjRow (u : Fin 128 → EReal) (j : Fin 128) : EReal :=
  u j * Ideal.div (min (Ideal.tanh (rowNorm u)) ballRadius) (rowNorm u)

/-- Exponential map, then its norm, then the projection where that norm exceeds the radius (the reference). -/
def expProjRowRef (u : Fin 128 → EReal) (j : Fin 128) : EReal :=
  if ballRadius < rowNorm (fun j' => Ideal.div (Ideal.tanh (rowNorm u) * u j') (rowNorm u)) then
    Ideal.div (Ideal.div (Ideal.tanh (rowNorm u) * u j) (rowNorm u))
      (rowNorm (fun j' => Ideal.div (Ideal.tanh (rowNorm u) * u j') (rowNorm u))) * ballRadius
  else Ideal.div (Ideal.tanh (rowNorm u) * u j) (rowNorm u)

/-- The whole result as the kernel computes it, entry (r, j). -/
def hypAgg (x : Fin 10000 → Fin 128 → EReal) (adj : Fin 10000 → Fin 10000 → EReal) (r : Fin 10000) (j : Fin 128) : EReal :=
  expProjRow (aggRow (adj r) (fun k => logMapRow (x k))) j

/-- The whole result as the reference computes it. -/
def hypAggRef (x : Fin 10000 → Fin 128 → EReal) (adj : Fin 10000 → Fin 10000 → EReal) (r : Fin 10000) (j : Fin 128) : EReal :=
  expProjRowRef (aggRow (adj r) (fun k => logMapRowRef (x k))) j

end Cert.HypAgg

end
-- ==== Proof.IdealValueData.lean ====
import proofs.«111283_g60404420051467_cont_9to1_m_1209_15_alg».proof.Proof.IdealFrame
import proofs.«111283_g60404420051467_cont_9to1_m_1209_15_alg».proof.Proof.Spec
import Idealize.ShloMosaic.Lib.ValueIdx

set_option maxRecDepth 16384

noncomputable section

namespace Cert.KernelIdeal.Body

open Cert.KernelIdeal Cert.KernelIdeal.Gen Cert.HypAgg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the run computes, at the ideal instance -/

/-- The grid's first point. -/
def t₀ : Fin cfg0.N := ⟨0, by have : cfg0.N = 40 := N_0; omega⟩

/-- The two argument arrays as the region finds them, by rows. -/
def xRows (c : Dev nD) : Fin 10000 → Fin 128 → EReal := fun r k => V m c main_arg0 (ValueIdx.ix2 r k)
def adjRows (c : Dev nD) : Fin 10000 → Fin 10000 → EReal := fun r k => V m c main_arg1 (ValueIdx.ix2 r k)

/-- What the scratch holds from the first point on: the first point's payload of the first operand's block, the
    tangent vectors of all rows. -/
def tangent (c : Dev nD) : Vec Ideal S10000x128 .f32 := k0_pay2 (F := Ideal) (iblk m c 0 t₀)

/-- The result array the run leaves: entry (r, j) the specification's function of the two arguments. -/
def result (c : Dev nD) : Vec Ideal S10000x128 .f32 :=
  fun i => hypAgg (xRows m c) (adjRows m c) ⟨(i 0).val, (i 0).isLt⟩ ⟨(i 1).val, (i 1).isLt⟩

/-- The invariant before point `n`: before the first point the scratch holds anything; afterwards the tangent
    vectors. -/
def PhiV (c : Dev nD) : ℕ → sProp 𝕄
  | 0 => Pipeline.ΦA spec0 c
  | _ + 1 => iprop(iprop(owns (c : Thread nD τ) scM fullShare (tangent m c)) ∗ (∃ r, prngReg c r))

theorem PhiV_pos (c : Dev nD) (n : ℕ) (hn : n ≠ 0) :
    PhiV m c n = iprop(iprop(owns (c : Thread nD τ) scM fullShare (tangent m c)) ∗ (∃ r, prngReg c r)) := by
  cases n with
  | zero => exact absurd rfl hn
  | succ n => rfl

/-- The proof data of the value run: the arrays as launched; after the body the first operand's buffer at its block,
    the second's at its block on the rows inside the array, the result's at the result's block on the rows inside
    the array (zero past the array's end, where nothing is stated). -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (result m c))
  Φ t := PhiV m c t.val
  q _ := fullShare
  owed _ := 0

theorem vA_eq (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vafter1 (c : Dev nD) (t : Fin cfg0.N) :
    (vdats m 0 c).after 1 t = win0_1.fill (grid0.coords t) (fun _ => (0 : EReal)) (iblk m c 1 t) := by dsimp only [vdats]
theorem vafter2 (c : Dev nD) (t : Fin cfg0.N) :
    (vdats m 0 c).after 2 t
      = win0_2.fill (grid0.coords t) (fun _ => (0 : EReal)) ((win0_2.blk t).view.read (Elt Ideal) (result m c)) := by
  dsimp only [vdats]

end Cert.KernelIdeal.Body

end
-- ==== Proof.KernelLog.lean ====
import proofs.«111283_g60404420051467_cont_9to1_m_1209_15_alg».proof.Proof.Gen.KernelIdeal.Skeleton
import proofs.«111283_g60404420051467_cont_9to1_m_1209_15_alg».proof.Proof.Spec
import Idealize.ShloMosaic.Lib.ValueIdx
import Idealize.ShloMosaic.PureOps.Ideal.Laws
import Idealize.ShloMosaic.Lib.IdealHost
import Idealize.ShloMosaic.Lib.Pipeline.Value

noncomputable section

namespace Cert.HypAgg.Kern

open Idealize.ShloMosaic Cert.KernelIdeal Cert.HypAgg

variable [Cert.KernelIdeal.Facts]

/-- The left operand's index of the product (rows × contraction) at output (i₀, i₁) and contraction index q: its row
    coordinate is i₀ … -/
private theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … and its column coordinate is q's one coordinate. -/
private theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The product of a block Y with the all-ones 128 × 128 matrix, accumulated into zero, has at (r, j) the sum of row r
    of Y, whatever the column j: 0 + Σ_k Y(r, k) · 1. -/
private theorem rowSum_apply (Y : FVec Ideal S10000x128 .f32) (r : Fin 10000) (j : Fin 128) :
    matmul dot_S10000x128_S128x128_S10000x128_1_0_0_1_n_n none Y (Gen.k0_pay1 (F := Ideal))
      (constant (F := Ideal) S10000x128 .f32 0x00000000#32) (ValueIdx.ix2 r j) = ∑ k : Fin 128, Y (ValueIdx.ix2 r k) := by
  show FloatOps.matmul dot_S10000x128_S128x128_S10000x128_1_0_0_1_n_n none Y (Gen.k0_pay1 (F := Ideal))
      (constant (F := Ideal) S10000x128 .f32 0x00000000#32) (ValueIdx.ix2 r j) = _
  rw [Ideal.matmul_constant_zero_apply,
    ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ValueIdx.ix2 r j)
      ((ValueIdx.contrEquiv1 dot_S10000x128_S128x128_S10000x128_1_0_0_1_n_n 128 rfl rfl).symm k) = ValueIdx.ix2 r k :=
    funext fun a => Fin.ext (by
      match a with
      | ⟨0, _⟩ => exact lhs_0 _ _
      | ⟨1, _⟩ => exact (lhs_1 _ _).trans hk)
  rw [el]
  -- every entry of the right operand is the float 1.0, the real number one
  show Y (ValueIdx.ix2 r k) * Ideal.ofBits .f32 0x3F800000#32 = _
  rw [Ideal.ofBits_one_f32, mul_one]

/-- What the first grid point stores into the scratch, entry (r, k): the logarithmic map of row r of the block it
    loaded. -/
theorem pay2_apply (X : Vec Ideal Cert.KernelIdeal.S10000x128 .f32) (r : Fin 10000) (k : Fin 128) :
    Cert.KernelIdeal.Gen.k0_pay2 (F := Ideal) X (ValueIdx.ix2 r k) = logMapRow (fun k' => X (ValueIdx.ix2 r k')) k := by
  -- the squared norm of row r is entry (r, k) of (X ∘ X) · 1
  have hs : (∑ k', X (ValueIdx.ix2 r k') * X (ValueIdx.ix2 r k')) =
      matmul dot_S10000x128_S128x128_S10000x128_1_0_0_1_n_n none (mulf X X) (Gen.k0_pay1 (F := Ideal))
        (constant (F := Ideal) S10000x128 .f32 0x00000000#32) (ValueIdx.ix2 r k) := (rowSum_apply (mulf X X) r k).symm
  unfold Gen.k0_pay2 logMapRow artanhClipped rowNorm
  -- the cast to the same shape is the identity
  simp only [shapeCast_self]
  rw [hs]
  generalize matmul dot_S10000x128_S128x128_S10000x128_1_0_0_1_n_n none (mulf X X) (Gen.k0_pay1 (F := Ideal))
        (constant (F := Ideal) S10000x128 .f32 0x00000000#32) = M
  -- every remaining operation acts entry by entry; with n = max (√M(r,k)) 1e-15 and t = min hi (max lo n) the entry is
  -- X(r,k) · ((½ · (log1p t − log1p (0 − t))) / n)
  show X (ValueIdx.ix2 r k) * Ideal.div (half * (Ideal.log1p (min clipHi (max clipLo (max (Ideal.sqrt (M (ValueIdx.ix2 r k))) minNorm)))
      - Ideal.log1p (Ideal.ofBits .f32 0x00000000#32 - min clipHi (max clipLo (max (Ideal.sqrt (M (ValueIdx.ix2 r k))) minNorm)))))
      (max (Ideal.sqrt (M (ValueIdx.ix2 r k))) minNorm) = _
  -- and 0 − t = −t
  rw [Ideal.ofBits_zero_f32, zero_sub]

end Cert.HypAgg.Kern

end
-- ==== Proof.KernelExp.lean ====
import proofs.«111283_g60404420051467_cont_9to1_m_1209_15_alg».proof.Proof.Gen.KernelIdeal.Skeleton
import proofs.«111283_g60404420051467_cont_9to1_m_1209_15_alg».proof.Proof.Spec
import Idealize.ShloMosaic.Lib.ValueIdx
import Idealize.ShloMosaic.PureOps.Ideal.Laws
import Idealize.ShloMosaic.Lib.IdealHost

noncomputable section

namespace Cert.HypAgg.Kern

open Idealize.ShloMosaic Cert.KernelIdeal Cert.HypAgg

/-! ## The aggregation product read at an entry: the contraction over the 10000 tangent rows -/

private theorem lhs_agg_0 (i : Cert.KernelIdeal.S256x128.Idx)
    (q : Cert.KernelIdeal.dot_S256x10000_S10000x128_S256x128_1_0_0_1_n_n.contr.Idx) :
    (Cert.KernelIdeal.dot_S256x10000_S10000x128_S256x128_1_0_0_1_n_n.lhsIdx i q 0).val = (i 0).val := by
  unfold DotDims.lhsIdx
  rw [dif_neg (show ¬(0 : Fin Cert.KernelIdeal.S256x10000.rank) ∈ Cert.KernelIdeal.dot_S256x10000_S10000x128_S256x128_1_0_0_1_n_n.lhsBatch by decide),
    dif_pos (show (0 : Fin Cert.KernelIdeal.S256x10000.rank) ∈ Cert.KernelIdeal.dot_S256x10000_S10000x128_S256x128_1_0_0_1_n_n.lhsNonContracting by decide)]
  rfl
private theorem lhs_agg_1 (i : Cert.KernelIdeal.S256x128.Idx)
    (q : Cert.KernelIdeal.dot_S256x10000_S10000x128_S256x128_1_0_0_1_n_n.contr.Idx) :
    (Cert.KernelIdeal.dot_S256x10000_S10000x128_S256x128_1_0_0_1_n_n.lhsIdx i q 1).val = (q ⟨0, by decide⟩).val :=
  Cert.KernelIdeal.dot_S256x10000_S10000x128_S256x128_1_0_0_1_n_n.lhsIdx_val_of_single rfl i q
private theorem rhs_agg_0 (i : Cert.KernelIdeal.S256x128.Idx)
    (q : Cert.KernelIdeal.dot_S256x10000_S10000x128_S256x128_1_0_0_1_n_n.contr.Idx) :
    (Cert.KernelIdeal.dot_S256x10000_S10000x128_S256x128_1_0_0_1_n_n.rhsIdx i q 0).val = (q ⟨0, by decide⟩).val :=
  Cert.KernelIdeal.dot_S256x10000_S10000x128_S256x128_1_0_0_1_n_n.rhsIdx_val_of_single rfl i q
private theorem rhs_agg_1 (i : Cert.KernelIdeal.S256x128.Idx)
    (q : Cert.KernelIdeal.dot_S256x10000_S10000x128_S256x128_1_0_0_1_n_n.contr.Idx) :
    (Cert.KernelIdeal.dot_S256x10000_S10000x128_S256x128_1_0_0_1_n_n.rhsIdx i q 1).val = (i 1).val := by
  unfold DotDims.rhsIdx
  rw [dif_neg (show ¬(1 : Fin Cert.KernelIdeal.S10000x128.rank) ∈ Cert.KernelIdeal.dot_S256x10000_S10000x128_S256x128_1_0_0_1_n_n.rhsBatch by decide),
    dif_pos (show (1 : Fin Cert.KernelIdeal.S10000x128.rank) ∈ Cert.KernelIdeal.dot_S256x10000_S10000x128_S256x128_1_0_0_1_n_n.rhsNonContracting by decide)]
  rfl

/-- Entry (p, j) of the product of the adjacency block with the scratch is the sum over the 10000 rows. -/
private theorem matmul_agg_apply (A : Vec Ideal Cert.KernelIdeal.S256x10000 .f32) (Xs : Vec Ideal Cert.KernelIdeal.S10000x128 .f32)
    (p : Fin 256) (j : Fin 128) :
    matmul (F := Ideal) (φ₁ := .f32) (φ₂ := .f32) Cert.KernelIdeal.dot_S256x10000_S10000x128_S256x128_1_0_0_1_n_n none A Xs
        (constant (F := Ideal) Cert.KernelIdeal.S256x128 .f32 0x00000000#32) (ValueIdx.ix2 p j)
      = ∑ k : Fin 10000, A (ValueIdx.ix2 p k) * Xs (ValueIdx.ix2 k j) := by
  simp only [matmul]
  rw [Ideal.matmul_constant_zero_apply,
    ← Equiv.sum_comp (ValueIdx.contrEquiv1 Cert.KernelIdeal.dot_S256x10000_S10000x128_S256x128_1_0_0_1_n_n 10000 rfl rfl).symm]
  refine Finset.sum_congr rfl fun k _ => ?_
  have hk := ValueIdx.contrEquiv1_symm_val Cert.KernelIdeal.dot_S256x10000_S10000x128_S256x128_1_0_0_1_n_n 10000 rfl rfl k
  have el : Cert.KernelIdeal.dot_S256x10000_S10000x128_S256x128_1_0_0_1_n_n.lhsIdx (ValueIdx.ix2 p j)
      ((ValueIdx.contrEquiv1 Cert.KernelIdeal.dot_S256x10000_S10000x128_S256x128_1_0_0_1_n_n 10000 rfl rfl).symm k)
      = ValueIdx.ix2 p k := funext fun a => Fin.ext (by
    match a with
    | ⟨0, _⟩ => exact lhs_agg_0 _ _
    | ⟨1, _⟩ => exact (lhs_agg_1 _ _).trans hk)
  have er : Cert.KernelIdeal.dot_S256x10000_S10000x128_S256x128_1_0_0_1_n_n.rhsIdx (ValueIdx.ix2 p j)
      ((ValueIdx.contrEquiv1 Cert.KernelIdeal.dot_S256x10000_S10000x128_S256x128_1_0_0_1_n_n 10000 rfl rfl).symm k)
      = ValueIdx.ix2 k j := funext fun a => Fin.ext (by
    match a with
    | ⟨0, _⟩ => exact (rhs_agg_0 _ _).trans hk
    | ⟨1, _⟩ => exact rhs_agg_1 _ _)
  rw [el, er]

/-! ## The product with the all-ones block read at an entry: the sum along the row -/

private theorem lhs_ones_0 (i : Cert.KernelIdeal.S256x128.Idx)
    (q : Cert.KernelIdeal.dot_S256x128_S128x128_S256x128_1_0_0_1_n_n.contr.Idx) :
    (Cert.KernelIdeal.dot_S256x128_S128x128_S256x128_1_0_0_1_n_n.lhsIdx i q 0).val = (i 0).val := by
  unfold DotDims.lhsIdx
  rw [dif_neg (show ¬(0 : Fin Cert.KernelIdeal.S256x128.rank) ∈ Cert.KernelIdeal.dot_S256x128_S128x128_S256x128_1_0_0_1_n_n.lhsBatch by decide),
    dif_pos (show (0 : Fin Cert.KernelIdeal.S256x128.rank) ∈ Cert.KernelIdeal.dot_S256x128_S128x128_S256x128_1_0_0_1_n_n.lhsNonContracting by decide)]
  rfl
private theorem lhs_ones_1 (i : Cert.KernelIdeal.S256x128.Idx)
    (q : Cert.KernelIdeal.dot_S256x128_S128x128_S256x128_1_0_0_1_n_n.contr.Idx) :
    (Cert.KernelIdeal.dot_S256x128_S128x128_S256x128_1_0_0_1_n_n.lhsIdx i q 1).val = (q ⟨0, by decide⟩).val :=
  Cert.KernelIdeal.dot_S256x128_S128x128_S256x128_1_0_0_1_n_n.lhsIdx_val_of_single rfl i q
private theorem rhs_ones_0 (i : Cert.KernelIdeal.S256x128.Idx)
    (q : Cert.KernelIdeal.dot_S256x128_S128x128_S256x128_1_0_0_1_n_n.contr.Idx) :
    (Cert.KernelIdeal.dot_S256x128_S128x128_S256x128_1_0_0_1_n_n.rhsIdx i q 0).val = (q ⟨0, by decide⟩).val :=
  Cert.KernelIdeal.dot_S256x128_S128x128_S256x128_1_0_0_1_n_n.rhsIdx_val_of_single rfl i q
private theorem rhs_ones_1 (i : Cert.KernelIdeal.S256x128.Idx)
    (q : Cert.KernelIdeal.dot_S256x128_S128x128_S256x128_1_0_0_1_n_n.contr.Idx) :
    (Cert.KernelIdeal.dot_S256x128_S128x128_S256x128_1_0_0_1_n_n.rhsIdx i q 1).val = (i 1).val := by
  unfold DotDims.rhsIdx
  rw [dif_neg (show ¬(1 : Fin Cert.KernelIdeal.S128x128.rank) ∈ Cert.KernelIdeal.dot_S256x128_S128x128_S256x128_1_0_0_1_n_n.rhsBatch by decide),
    dif_pos (show (1 : Fin Cert.KernelIdeal.S128x128.rank) ∈ Cert.KernelIdeal.dot_S256x128_S128x128_S256x128_1_0_0_1_n_n.rhsNonContracting by decide)]
  rfl

/-- Every entry of the all-ones block is the real number one. -/
private theorem pay1_apply (i : Cert.KernelIdeal.S128x128.Idx) : Cert.KernelIdeal.Gen.k0_pay1 (F := Ideal) i = 1 := by
  show Ideal.ofBits .f32 0x3F800000#32 = 1
  exact Ideal.ofBits_one_f32

/-- Entry (p, j) of the product of a block with the all-ones block is the sum of row p of the block, whatever j. -/
private theorem matmul_ones_apply (V : FVec Ideal Cert.KernelIdeal.S256x128 .f32) (p : Fin 256) (j : Fin 128) :
    matmul (F := Ideal) (φ₁ := .f32) (φ₂ := .f32) Cert.KernelIdeal.dot_S256x128_S128x128_S256x128_1_0_0_1_n_n none V
        (Cert.KernelIdeal.Gen.k0_pay1 (F := Ideal)) (constant (F := Ideal) Cert.KernelIdeal.S256x128 .f32 0x00000000#32) (ValueIdx.ix2 p j)
      = ∑ k : Fin 128, V (ValueIdx.ix2 p k) := by
  simp only [matmul]
  rw [Ideal.matmul_constant_zero_apply,
    ← Equiv.sum_comp (ValueIdx.contrEquiv1 Cert.KernelIdeal.dot_S256x128_S128x128_S256x128_1_0_0_1_n_n 128 rfl rfl).symm]
  refine Finset.sum_congr rfl fun k _ => ?_
  have hk := ValueIdx.contrEquiv1_symm_val Cert.KernelIdeal.dot_S256x128_S128x128_S256x128_1_0_0_1_n_n 128 rfl rfl k
  have el : Cert.KernelIdeal.dot_S256x128_S128x128_S256x128_1_0_0_1_n_n.lhsIdx (ValueIdx.ix2 p j)
      ((ValueIdx.contrEquiv1 Cert.KernelIdeal.dot_S256x128_S128x128_S256x128_1_0_0_1_n_n 128 rfl rfl).symm k)
      = ValueIdx.ix2 p k := funext fun a => Fin.ext (by
    match a with
    | ⟨0, _⟩ => exact lhs_ones_0 _ _
    | ⟨1, _⟩ => exact (lhs_ones_1 _ _).trans hk)
  rw [el, pay1_apply, mul_one]

/-- The square root and the hyperbolic tangent of a block, read at an entry. -/
private theorem sqrt_apply {s : Shape} {φ : FTy} (v : FVec Ideal s φ) (i : s.Idx) :
    Idealize.ShloMosaic.sqrt v i = Ideal.sqrt (v i) := rfl
private theorem tanh_apply {s : Shape} {φ : FTy} (v : FVec Ideal s φ) (i : s.Idx) :
    Idealize.ShloMosaic.tanh v i = Ideal.tanh (v i) := rfl

/-- What every grid point stores into the result's block, entry (p, j): the rescaled aggregate of row p of the
    adjacency block against the scratch — a function of that ROW of the block alone. -/
theorem pay3_apply (A : Vec Ideal Cert.KernelIdeal.S256x10000 .f32) (Xs : Vec Ideal Cert.KernelIdeal.S10000x128 .f32)
    (p : Fin 256) (j : Fin 128) :
    Cert.KernelIdeal.Gen.k0_pay3 (F := Ideal) A Xs (ValueIdx.ix2 p j)
      = expProjRow (aggRow (fun k => A (ValueIdx.ix2 p k)) (fun k j' => Xs (ValueIdx.ix2 k j'))) j := by
  unfold Cert.KernelIdeal.Gen.k0_pay3
  simp only [ValueIdx.mulf_apply, ValueIdx.divf_apply, ValueIdx.maximumf_apply, ValueIdx.minimumf_apply,
    ValueIdx.broadcast_apply, sqrt_apply, tanh_apply, matmul_ones_apply, matmul_agg_apply, Ideal.ofBits_def]
  rfl

end Cert.HypAgg.Kern

end
-- ==== Proof.IdealValuePoint.lean ====
import proofs.«111283_g60404420051467_cont_9to1_m_1209_15_alg».proof.Proof.IdealValueData
import proofs.«111283_g60404420051467_cont_9to1_m_1209_15_alg».proof.Proof.KernelLog
import proofs.«111283_g60404420051467_cont_9to1_m_1209_15_alg».proof.Proof.KernelExp

set_option maxRecDepth 16384

noncomputable section

namespace Cert.KernelIdeal.Body

open Cert.KernelIdeal Cert.KernelIdeal.Gen Cert.HypAgg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The index maps and cut sizes of the two moving windows, in closed form over the grid -/

/-- The adjacency window at point t: block index (t, 0); all 10000 columns; 256 rows, 16 at the last point. -/
private theorem closed_1 : ∀ t : Fin grid0.N, win0_1.index t 0 = t.val ∧ win0_1.index t 1 = 0
    ∧ win0_1.xsize (grid0.coords t) 1 = 10000
    ∧ win0_1.xsize (grid0.coords t) 0 = if t.val = 39 then 16 else 256 := by decide +kernel

/-- The result window at point t: block index (t, 0); all 128 columns; 256 rows, 16 at the last point. -/
private theorem closed_2 : ∀ t : Fin grid0.N, win0_2.index t 0 = t.val ∧ win0_2.index t 1 = 0
    ∧ win0_2.xsize (grid0.coords t) 1 = 128
    ∧ win0_2.xsize (grid0.coords t) 0 = if t.val = 39 then 16 else 256 := by decide +kernel

/-! ## The blocks read as rows of the argument arrays -/

/-- The first window's one block is the whole array of points. -/
private theorem iblk0_apply (c : Dev nD) (k : Fin 10000) (k' : Fin 128) :
    (iblk m c 0 t₀ : Vec Ideal S10000x128 .f32) (ValueIdx.ix2 k k') = xRows m c k k' := by
  unfold iblk
  rw [View.read_apply]
  change V m c main_arg0 _ = _
  unfold xRows
  refine congrArg (V m c main_arg0) (funext (Fin.forall_fin_two.mpr ⟨Fin.ext ?_, Fin.ext ?_⟩))
  · show win0_0.index t₀ 0 * 10000 + 1 * k.val = k.val
    rw [show win0_0.index t₀ 0 = 0 from by decide +kernel]; omega
  · show win0_0.index t₀ 1 * 128 + 1 * k'.val = k'.val
    rw [show win0_0.index t₀ 1 = 0 from by decide +kernel]; omega

/-- So what the scratch holds is, row by row, the logarithmic map of the points. -/
private theorem tangent_apply (c : Dev nD) (k : Fin 10000) (j' : Fin 128) :
    tangent m c (ValueIdx.ix2 k j') = logMapRow (xRows m c k) j' := by
  unfold tangent
  rw [Cert.HypAgg.Kern.pay2_apply]
  exact congrArg (fun x => logMapRow x j') (funext fun k' => iblk0_apply m c k k')

/-- Row p of the adjacency window's staging buffer, once the block at point t has been fetched over any contents,
    is row 256 t + p of the adjacency matrix, when that row lies inside the array. -/
private theorem fill_row (c : Dev nD) (t : Fin cfg0.N) (d : S256x10000.Idx → EReal) (p : Fin 256)
    (hp : p.val < win0_1.xsize (grid0.coords t) 0) (r : Fin 10000) (hr : r.val = t.val * 256 + p.val) (k : Fin 10000) :
    win0_1.fill (grid0.coords t) d (iblk m c 1 t) (ValueIdx.ix2 p k) = adjRows m c r k := by
  have hx1 : win0_1.xsize (grid0.coords t) 1 = 10000 := (closed_1 t).2.2.1
  have hk : k.val < win0_1.xsize (grid0.coords t) 1 := by rw [hx1]; exact k.isLt
  have hmv : win0_1.moved (grid0.coords t) (ValueIdx.ix2 p k : S256x10000.Idx) = true :=
    (Window.moved_iff _ _ _).mpr (Fin.forall_fin_two.mpr ⟨hp, hk⟩)
  unfold Window.fill
  rw [dif_pos hmv]
  unfold iblk
  rw [View.read_apply]
  change V m c main_arg1 _ = _
  unfold adjRows
  refine congrArg (V m c main_arg1) (funext (Fin.forall_fin_two.mpr ⟨Fin.ext ?_, Fin.ext ?_⟩))
  · show win0_1.index t 0 * 256 + 1 * p.val = r.val
    rw [(closed_1 t).1, hr]; omega
  · show win0_1.index t 1 * 10000 + 1 * k.val = k.val
    rw [(closed_1 t).2.1]; omega

/-- Entry y of the result's block at point t is entry (256 t + y₀, y₁) of the result. -/
private theorem result_blk_apply (c : Dev nD) (t : Fin cfg0.N) (y : (win0_2.xblock (grid0.coords t)).Idx)
    (r : Fin 10000) (j : Fin 128) (hr : r.val = t.val * 256 + (y 0).val) (hj : j.val = (y 1).val) :
    (win0_2.blk t).view.read (Elt Ideal) (result m c) y = hypAgg (xRows m c) (adjRows m c) r j := by
  rw [View.read_apply]
  change result m c _ = _
  unfold result
  refine congrArg₂ (hypAgg (xRows m c) (adjRows m c)) (Fin.ext ?_) (Fin.ext ?_)
  · show win0_2.index t 0 * 256 + 1 * (y 0).val = r.val
    rw [(closed_2 t).1, hr]; omega
  · show win0_2.index t 1 * 128 + 1 * (y 1).val = j.val
    rw [(closed_2 t).2.1, hj]; omega

/-- THE VALUE AT A POINT. Whatever the second operand's staging buffer holds past the array's end (`d`), the rows
    inside the array of what the body stores at point `t` — its payload of that buffer and the tangent vectors —
    are the result's block at `t`: a row of the payload reads only that row of the buffer. -/
theorem point_value (c : Dev nD) (t : Fin cfg0.N) (d : S256x10000.Idx → EReal) :
    win0_2.cut (grid0.coords t) (k0_pay3 (F := Ideal) (win0_1.fill (grid0.coords t) d (iblk m c 1 t)) (tangent m c))
      = (win0_2.blk t).view.read (Elt Ideal) (result m c) := by
  funext y
  have hN : cfg0.N = 40 := N_0
  have ht : t.val < 40 := hN ▸ t.isLt
  have hy0 : (y 0).val < win0_2.xsize (grid0.coords t) 0 := (y 0).isLt
  have hy1 : (y 1).val < win0_2.xsize (grid0.coords t) 1 := (y 1).isLt
  rw [(closed_2 t).2.2.2] at hy0
  rw [(closed_2 t).2.2.1] at hy1
  have hp256 : (y 0).val < 256 := by split_ifs at hy0 <;> omega
  have hrow : t.val * 256 + (y 0).val < 10000 := by split_ifs at hy0 <;> omega
  have hp1 : (y 0).val < win0_1.xsize (grid0.coords t) 0 := by rw [(closed_1 t).2.2.2]; exact hy0
  have e : win0_2.xinj (grid0.coords t) y
      = (ValueIdx.ix2 (⟨(y 0).val, hp256⟩ : Fin 256) (⟨(y 1).val, hy1⟩ : Fin 128) : S256x128.Idx) :=
    funext (Fin.forall_fin_two.mpr ⟨rfl, rfl⟩)
  rw [result_blk_apply m c t y ⟨t.val * 256 + (y 0).val, hrow⟩ ⟨(y 1).val, hy1⟩ rfl rfl]
  show k0_pay3 (F := Ideal) _ _ (win0_2.xinj (grid0.coords t) y) = _
  rw [e, Cert.HypAgg.Kern.pay3_apply]
  unfold hypAgg
  have eA : (fun k => win0_1.fill (grid0.coords t) d (iblk m c 1 t) (ValueIdx.ix2 (⟨(y 0).val, hp256⟩ : Fin 256) k))
      = adjRows m c ⟨t.val * 256 + (y 0).val, hrow⟩ :=
    funext fun k => fill_row m c t d ⟨(y 0).val, hp256⟩ hp1 ⟨t.val * 256 + (y 0).val, hrow⟩ rfl k
  have eT : (fun k j' => tangent m c (ValueIdx.ix2 k j')) = fun k => logMapRow (xRows m c k) :=
    funext fun k => funext fun j' => tangent_apply m c k j'
  rw [eA, eT]

end Cert.KernelIdeal.Body

end
-- ==== Proof.IdealValueCover.lean ====
import proofs.«111283_g60404420051467_cont_9to1_m_1209_15_alg».proof.Proof.IdealValueData

set_option maxRecDepth 16384

noncomputable section

namespace Cert.KernelIdeal.Body

open Cert.KernelIdeal Cert.KernelIdeal.Gen Cert.HypAgg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result window's block at point t, in closed form over the forty points: block index (t, 0); all 128 columns;
    256 rows, cut to the array's 16 remaining rows at the last point (39 · 256 = 9984, 10000 − 9984 = 16). -/
private theorem win2_closed : ∀ t : Fin grid0.N, win0_2.index t 0 = t.val ∧ win0_2.index t 1 = 0
    ∧ win0_2.xsize (grid0.coords t) 1 = 128 ∧ win0_2.xsize (grid0.coords t) 0 = if t.val = 39 then 16 else 256 := by
  decide +kernel

/-- The result's blocks cover its array: row r lies in the block of point r / 256 (the last block cut to the
    array's sixteen remaining rows), and every point writes its block back. -/
theorem result_cover (i : S10000x128.Idx) :
    ∃ t : Fin cfg0.N, (cfg0.win 2).flush t = true ∧ i ∈ ((cfg0.win 2).blk t).view.set := by
  have h0 : (i 0).val < 10000 := (i 0).isLt
  have h1 : (i 1).val < 128 := (i 1).isLt
  have hN : cfg0.N = 40 := N_0
  -- the point is the row's quotient by the block height: below 40 since the row is below 10000
  have ht : (i 0).val / 256 < cfg0.N := by omega
  refine ⟨⟨(i 0).val / 256, ht⟩, flush0_2 _, ?_⟩
  -- the block is a unit-stride rectangle of the whole array: on each axis, offset index · size and the cut extent
  show i ∈ ((View.whole main_v0).slice (win0_2.rect ⟨(i 0).val / 256, ht⟩)).set
  rw [View.set_slice_whole, Rect.mem_set_unit]
  obtain ⟨e0, e1, x1, x0⟩ := win2_closed ⟨(i 0).val / 256, ht⟩
  intro a
  match a with
  | ⟨0, _⟩ =>
    -- rows: q · 256 ≤ r < q · 256 + 256 with q = r / 256; at q = 39, r < 10000 = 39 · 256 + 16
    change win0_2.index ⟨(i 0).val / 256, ht⟩ 0 * 256 ≤ (i 0).val
      ∧ (i 0).val < win0_2.index ⟨(i 0).val / 256, ht⟩ 0 * 256 + win0_2.xsize (grid0.coords ⟨(i 0).val / 256, ht⟩) 0
    rw [e0, x0]
    show (i 0).val / 256 * 256 ≤ (i 0).val ∧ (i 0).val < (i 0).val / 256 * 256 + (if (i 0).val / 256 = 39 then 16 else 256)
    split <;> omega
  | ⟨1, _⟩ =>
    -- columns: 0 ≤ j < 128
    change win0_2.index ⟨(i 0).val / 256, ht⟩ 1 * 128 ≤ (i 1).val
      ∧ (i 1).val < win0_2.index ⟨(i 0).val / 256, ht⟩ 1 * 128 + win0_2.xsize (grid0.coords ⟨(i 0).val / 256, ht⟩) 1
    rw [e1, x1]
    omega

end Cert.KernelIdeal.Body

end
-- ==== Proof.IdealValueRun.lean ====
import proofs.«111283_g60404420051467_cont_9to1_m_1209_15_alg».proof.Proof.IdealValuePoint
import proofs.«111283_g60404420051467_cont_9to1_m_1209_15_alg».proof.Proof.IdealValueCover
import Idealize.ShloMosaic.Lib.Pipeline.Value

set_option maxRecDepth 16384

noncomputable section

namespace Cert.KernelIdeal.Body

open Cert.KernelIdeal Cert.KernelIdeal.Gen Cert.HypAgg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the body finds in each staging buffer -/

theorem vbefore0 (c : Dev nD) (t : Fin cfg0.N) (d) : (vdats m 0 c).before 0 t d = iblk m c 0 t :=
  before0_0_of m (vdats m 0 c) (vA_eq m c 0) (vafter0 m c) t d

/-- The second operand's buffer, just fetched: its block on the rows inside the array, `d` past them. -/
theorem vbefore1 (c : Dev nD) (t : Fin cfg0.N) (d) :
    (vdats m 0 c).before 1 t d = win0_1.fill (grid0.coords t) d (iblk m c 1 t) := by
  rw [Dat.before_fetched _ 1 t (fetch0_1 t)]; unfold Dat.fetched Dat.blockOf iblk; rw [vA_eq]

/-- The result's buffer: written back at every point, so fresh at every point. -/
theorem vbefore2 (c : Dev nD) (t : Fin cfg0.N) (d) : (vdats m 0 c).before 2 t d = d :=
  (vdats m 0 c).before_out_reset 2 rfl t
    (by by_cases h : t.val = 0
        · exact .inl h
        · exact .inr ⟨h, flush0_2 _⟩) d

theorem vbody_obligation (c : Dev nD) :
    BodyObligationLoose (vdats m 0 c) (defs₀ (F := Ideal)) Variants.none () Set.univ := fun t => by
  rw [bigSep_W0, bigSep_W0]
  simp only [vbefore0 m c t, vbefore1 m c t, vbefore2 m c t]
  rw [vafter0, vafter1, vafter2]
  rw [show (win0 1).cut (grid0.coords t) (win0_1.fill (grid0.coords t) (fun _ => (0 : EReal)) (iblk m c 1 t)) = iblk m c 1 t
        from win0_1.cut_fill _ _ _,
    show (win0 2).cut (grid0.coords t)
          (win0_2.fill (grid0.coords t) (fun _ => (0 : EReal)) ((win0_2.blk t).view.read (Elt Ideal) (result m c)))
        = (win0_2.blk t).view.read (Elt Ideal) (result m c) from win0_2.cut_fill _ _ _]
  rw [show (vdats m 0 c).Φ t.succ = PhiV m c (t.val + 1) from rfl, show (vdats m 0 c).Φ t.castSucc = PhiV m c t.val from rfl,
    show (vdats m 0 c).owesAt () t.succ = (vdats m 0 c).owesAt () t.castSucc from rfl,
    PhiV_pos m c (t.val + 1) (Nat.succ_ne_zero _)]
  show _ ⊢ wp Idealize.ShloMosaic.frame (wpE (defs₀ (F := Ideal)) Variants.none c none) Set.univ (bodyAt0 t) _
  unfold bodyAt0
  by_cases h0 : isFirst (grid0.coords t)
  · -- the first point: the scratch, at anything, is stored with the tangent vectors
    have ht : t.val = 0 := (isFirst_iff t).mp h0
    have e2 : k0_pay2 (F := Ideal) (iblk m c 0 t) = tangent m c := by rw [show t = t₀ from Fin.ext ht]; rfl
    rw [show PhiV m c t.val = Pipeline.ΦA spec0 c from by rw [ht]; rfl, PhiA_eq]
    iintro ⟨⟨⟨%ds, HS⟩, Hg⟩, Ho, ⟨%d0, H0⟩, ⟨%d1, H1⟩, ⟨%d2, H2⟩⟩
    iapply (body_first (F := Ideal) c (grid0.coords t) (ms0 t) (hs0 t) (ms1 t) (hs1 t) (ms2 t) (hs2 t) scM (Memref.isWhole_whole _)
      h0 (iblk m c 0 t) (win0_1.fill (grid0.coords t) d1 (iblk m c 1 t)) Set.univ _)
    isplitl [H0]; · iexact H0
    isplitl [H1]; · iexact H1
    isplitl [H2]; · iexists _; iexact H2
    isplitl [HS]; · iexists _; iexact HS
    rw [e2]
    iintro ⟨H0, H1, H2, HS⟩
    isplitl [HS Hg]
    · isplitl [HS]; · iexact HS
      iexact Hg
    isplitl [Ho]; · iexact Ho
    isplitl [H0]; · iexact H0
    isplitl [H1]; · iexists d1; iexact H1
    iexists (k0_pay3 (F := Ideal) (win0_1.fill (grid0.coords t) d1 (iblk m c 1 t)) (tangent m c))
    rw [← point_value m c t d1, win0_2.fill_cut]
    iexact H2
  · -- a later point: the scratch holds the tangent vectors and is only read
    have ht : t.val ≠ 0 := fun h => h0 ((isFirst_iff t).mpr h)
    rw [PhiV_pos m c t.val ht]
    iintro ⟨⟨HS, Hg⟩, Ho, ⟨%d0, H0⟩, ⟨%d1, H1⟩, ⟨%d2, H2⟩⟩
    iapply (body_rest (F := Ideal) c (grid0.coords t) (ms0 t) (hs0 t) (ms1 t) (hs1 t) (ms2 t) (hs2 t) scM (Memref.isWhole_whole _)
      h0 (iblk m c 0 t) (win0_1.fill (grid0.coords t) d1 (iblk m c 1 t)) (tangent m c) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexists d1; iexact H1
    iexists (k0_pay3 (F := Ideal) (win0_1.fill (grid0.coords t) d1 (iblk m c 1 t)) (tangent m c))
    rw [← point_value m c t d1, win0_2.fill_cut]
    iexact H2

/-- What the launch hands the region is the invariant before the first point. -/
theorem vhin (c : Dev nD) : Pipeline.ΦA spec0 c ⊢ (vdats m 0 c).Φ 0 := by
  rw [show (vdats m 0 c).Φ 0 = Pipeline.ΦA spec0 c from rfl]

/-- After the last point the invariant gives the region's back: the scratch's contents are forgotten. -/
theorem vhout (c : Dev nD) : (vdats m 0 c).Φ (Fin.last cfg0.N) ⊢ Pipeline.ΦA spec0 c := by
  rw [show (vdats m 0 c).Φ (Fin.last cfg0.N) = PhiV m c cfg0.N from rfl,
    PhiV_pos m c cfg0.N (by have : cfg0.N = 40 := N_0; omega), PhiA_eq]
  iintro ⟨HS, Hg⟩
  isplitl [HS]
  · iexists _; iexact HS
  iexact Hg

set_option backward.isDefEq.respectTransparency.types false in
/-- The run with every array named: the result at what the proof data computes, the arguments as launched. -/
theorem vrun : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => vbody_obligation m c) (hshare := fun c => (vdats m 0 c).share_full fun _ => rfl)
    (howed := fun _ _ => rfl) (V := V m) (hmain := hmain m Variants.none) (hA := vA_eq m) (hin := vhin m) (hout := vhout m)

/-- Every point writes back its block of the result, and the blocks cover the array: the result array ends
    holding the specification's function of the arguments. -/
theorem vfinal (c : Dev nD) : (vdats m 0 c).arrAt 2 cfg0.N = result m c :=
  (vdats m 0 c).arrAt_eq_of_cover 2 (result m c)
    (fun t _ => by
      show (cfg0.win 2).cut (cfg0.grid.coords t) ((vdats m 0 c).after 2 t) = _
      rw [vafter2]; exact win0_2.cut_fill _ _ _)
    result_cover

/-- The idealized kernel's run: it terminates, the result array holds `result`, the arguments are unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (vfinal m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c)))⟩) (vrun m ρ)

end Cert.KernelIdeal.Body

end
-- ==== Proof.RefValue.lean ====
import proofs.«111283_g60404420051467_cont_9to1_m_1209_15_alg».proof.Proof.Gen.ReferenceIdeal.Run
import proofs.«111283_g60404420051467_cont_9to1_m_1209_15_alg».proof.Proof.Gen.ReferenceIdeal.Read
import proofs.«111283_g60404420051467_cont_9to1_m_1209_15_alg».proof.Proof.Spec
import Idealize.ShloMosaic.Lib.ValueIdx
import Idealize.ShloMosaic.Lib.IdealHost

noncomputable section

namespace Cert.HypAgg.Ref

open Idealize.ShloMosaic Cert.ReferenceIdeal Cert.HypAgg

/-- The row-sum index of the broadcast row index is the entry (r, k). -/
private theorem idx_sum_row (r : Fin 10000) (z : Fin 1) (k : Fin 128) :
    Read.idx_main_call0_v1 (Read.idx_main_call0_v2 (ValueIdx.ix2 r z)) k = ValueIdx.ix2 r k :=
  funext fun a => Fin.ext (by match a with | ⟨0, _⟩ => rfl | ⟨1, _⟩ => rfl)

/-- The clamped norm of row r of the first argument. -/
private theorem v1_at (x0 : (⟨Cert.ReferenceIdeal.S10000x128, .f32⟩ : BufTy).Contents (Elt Ideal)) (r : Fin 10000) (z : Fin 1) :
    Read.val_main_v1 (F := Ideal) x0 (ValueIdx.ix2 r z) = rowNorm (fun k => x0 (ValueIdx.ix2 r k)) := by
  rw [Read.val_main_v1_apply, Read.val_main_call1_v1_apply, Read.val_main_call1_v0_apply, Read.val_main_cst_apply,
    Read.val_main_v0_apply, Read.val_main_call0_v2_apply, Read.val_main_call0_v1_apply, Read.val_main_call0_cst_apply]
  simp only [Read.val_main_call0_v0_apply, idx_sum_row, Ideal.ofBits_def, Ideal.ofBits_zero_f32, zero_add,
    Ideal.mulf_def, Ideal.maximumf_def, Ideal.hostUnary_sqrt_def]
  rw [max_comm]
  rfl

/-! A column-broadcast reads entry (r, k) from the one-column entry (r, 0). -/

private theorem idx_v4 (r : Fin 10000) (k : Fin 128) :
    Read.idx_main_v4 (ValueIdx.ix2 r k) = ValueIdx.ix2 r (0 : Fin 1) :=
  funext fun a => Fin.ext (by match a with | ⟨0, _⟩ => rfl | ⟨1, _⟩ => rfl)

private theorem idx_v15 (r : Fin 10000) (k : Fin 128) :
    Read.idx_main_v15 (ValueIdx.ix2 r k) = ValueIdx.ix2 r (0 : Fin 1) :=
  funext fun a => Fin.ext (by match a with | ⟨0, _⟩ => rfl | ⟨1, _⟩ => rfl)

private theorem idx_v23 (r : Fin 10000) (k : Fin 128) :
    Read.idx_main_v23 (ValueIdx.ix2 r k) = ValueIdx.ix2 r (0 : Fin 1) :=
  funext fun a => Fin.ext (by match a with | ⟨0, _⟩ => rfl | ⟨1, _⟩ => rfl)

private theorem idx_v27 (r : Fin 10000) (k : Fin 128) :
    Read.idx_main_v27 (ValueIdx.ix2 r k) = ValueIdx.ix2 r (0 : Fin 1) :=
  funext fun a => Fin.ext (by match a with | ⟨0, _⟩ => rfl | ⟨1, _⟩ => rfl)

private theorem idx_v31 (r : Fin 10000) (k : Fin 128) :
    Read.idx_main_v31 (ValueIdx.ix2 r k) = ValueIdx.ix2 r (0 : Fin 1) :=
  funext fun a => Fin.ext (by match a with | ⟨0, _⟩ => rfl | ⟨1, _⟩ => rfl)

private theorem idx_c7 (r : Fin 10000) (k : Fin 128) :
    Read.idx_main_call7_v0 (ValueIdx.ix2 r k) = ValueIdx.ix2 r (0 : Fin 1) :=
  funext fun a => Fin.ext (by match a with | ⟨0, _⟩ => rfl | ⟨1, _⟩ => rfl)

/-- The artanh of the clipped norm of row r, halved. -/
private theorem v14_at (x0 : (⟨Cert.ReferenceIdeal.S10000x128, .f32⟩ : BufTy).Contents (Elt Ideal)) (r : Fin 10000) (z : Fin 1) :
    Read.val_main_v14 (F := Ideal) x0 (ValueIdx.ix2 r z) = artanhClipped (rowNorm (fun k => x0 (ValueIdx.ix2 r k))) := by
  simp only [Read.val_main_v14_apply, Read.val_main_v13_apply, Read.val_main_cst_4_apply, Read.val_main_v12_apply,
    Read.val_main_v9_apply, Read.val_main_v11_apply, Read.val_main_v10_apply, Read.val_main_v8_apply,
    Read.val_main_call2_v4_apply, Read.val_main_call2_v3_apply, Read.val_main_cst_3_apply,
    Read.val_main_call2_v2_apply, Read.val_main_call2_v1_apply, Read.val_main_call2_v0_apply, Read.val_main_cst_2_apply,
    Read.val_main_v7_apply, Read.val_main_v6_apply, Read.val_main_cst_1_apply, v1_at,
    Ideal.ofBits_def, Ideal.ofBits_one_f32, one_mul, Ideal.mulf_def, Ideal.maximumf_def, Ideal.minimumf_def,
    Ideal.subf_def, Ideal.hostNegf_def, Ideal.negf_def, Ideal.hostUnary_log1p_def]
  rfl

/-- The logarithmic map's row. -/
private theorem v16_at (x0 : (⟨Cert.ReferenceIdeal.S10000x128, .f32⟩ : BufTy).Contents (Elt Ideal)) (r : Fin 10000) (k : Fin 128) :
    Read.val_main_v16 (F := Ideal) x0 (ValueIdx.ix2 r k) = logMapRowRef (fun k => x0 (ValueIdx.ix2 r k)) k := by
  simp only [Read.val_main_v16_apply, Read.val_main_v5_apply, Read.val_main_v4_apply, Read.val_main_v3_apply,
    Read.val_main_v2_apply, Read.val_main_cst_0_apply, Read.val_main_v15_apply, idx_v4, idx_v15, v14_at, v1_at,
    Ideal.ofBits_def, Ideal.ofBits_one_f32, one_mul, Ideal.mulf_def, Ideal.hostDivf_def]
  rfl

/-- The contraction's left index at (r, j), k is the adjacency entry (r, k). -/
private theorem idx_dot_l (r : Fin 10000) (j : Fin 128) (k : Fin 10000) :
    Read.lidx_main_v17 (ValueIdx.ix2 r j) k = ValueIdx.ix2 r k :=
  funext fun a => Fin.ext (by match a with | ⟨0, _⟩ => rfl | ⟨1, _⟩ => rfl)

/-- The contraction's right index at (r, j), k is the tangent entry (k, j). -/
private theorem idx_dot_r (r : Fin 10000) (j : Fin 128) (k : Fin 10000) :
    Read.ridx_main_v17 (ValueIdx.ix2 r j) k = ValueIdx.ix2 k j :=
  funext fun a => Fin.ext (by match a with | ⟨0, _⟩ => rfl | ⟨1, _⟩ => rfl)

/-- The aggregate's row. -/
private theorem v17_at (x0 : (⟨Cert.ReferenceIdeal.S10000x128, .f32⟩ : BufTy).Contents (Elt Ideal))
    (x1 : (⟨Cert.ReferenceIdeal.S10000x10000, .f32⟩ : BufTy).Contents (Elt Ideal)) (r : Fin 10000) (j : Fin 128) :
    Read.val_main_v17 (F := Ideal) x0 x1 (ValueIdx.ix2 r j)
      = aggRow (fun k => x1 (ValueIdx.ix2 r k)) (fun k => logMapRowRef (fun k' => x0 (ValueIdx.ix2 k k'))) j := by
  rw [Read.val_main_v17_apply]
  simp only [idx_dot_l, idx_dot_r, v16_at]
  rfl

private theorem idx_sum_row3 (r : Fin 10000) (z : Fin 1) (k : Fin 128) :
    Read.idx_main_call3_v1 (Read.idx_main_call3_v2 (ValueIdx.ix2 r z)) k = ValueIdx.ix2 r k :=
  funext fun a => Fin.ext (by match a with | ⟨0, _⟩ => rfl | ⟨1, _⟩ => rfl)

private theorem idx_sum_row5 (r : Fin 10000) (z : Fin 1) (k : Fin 128) :
    Read.idx_main_call5_v1 (Read.idx_main_call5_v2 (ValueIdx.ix2 r z)) k = ValueIdx.ix2 r k :=
  funext fun a => Fin.ext (by match a with | ⟨0, _⟩ => rfl | ⟨1, _⟩ => rfl)

/-- The clamped norm of the aggregate's row r. -/
private theorem v19_at (x0 : (⟨Cert.ReferenceIdeal.S10000x128, .f32⟩ : BufTy).Contents (Elt Ideal))
    (x1 : (⟨Cert.ReferenceIdeal.S10000x10000, .f32⟩ : BufTy).Contents (Elt Ideal)) (r : Fin 10000) (z : Fin 1) :
    Read.val_main_v19 (F := Ideal) x0 x1 (ValueIdx.ix2 r z)
      = rowNorm (fun j => Read.val_main_v17 (F := Ideal) x0 x1 (ValueIdx.ix2 r j)) := by
  rw [Read.val_main_v19_apply, Read.val_main_call4_v1_apply, Read.val_main_call4_v0_apply, Read.val_main_cst_5_apply,
    Read.val_main_v18_apply, Read.val_main_call3_v2_apply, Read.val_main_call3_v1_apply, Read.val_main_call3_cst_apply]
  simp only [Read.val_main_call3_v0_apply, idx_sum_row3, Ideal.ofBits_def, Ideal.ofBits_zero_f32, zero_add,
    Ideal.mulf_def, Ideal.maximumf_def, Ideal.hostUnary_sqrt_def]
  rw [max_comm]
  rfl

/-- The exponential map's row r, entry j. -/
private theorem v28_at (x0 : (⟨Cert.ReferenceIdeal.S10000x128, .f32⟩ : BufTy).Contents (Elt Ideal))
    (x1 : (⟨Cert.ReferenceIdeal.S10000x10000, .f32⟩ : BufTy).Contents (Elt Ideal)) (r : Fin 10000) (j : Fin 128) :
    Read.val_main_v28 (F := Ideal) x0 x1 (ValueIdx.ix2 r j)
      = Ideal.div (Ideal.tanh (rowNorm (fun j' => Read.val_main_v17 (F := Ideal) x0 x1 (ValueIdx.ix2 r j')))
          * Read.val_main_v17 (F := Ideal) x0 x1 (ValueIdx.ix2 r j))
          (rowNorm (fun j' => Read.val_main_v17 (F := Ideal) x0 x1 (ValueIdx.ix2 r j'))) := by
  simp only [Read.val_main_v28_apply, Read.val_main_v24_apply, Read.val_main_v23_apply, Read.val_main_v22_apply,
    Read.val_main_v21_apply, Read.val_main_v20_apply, Read.val_main_cst_6_apply, Read.val_main_v27_apply,
    Read.val_main_v26_apply, Read.val_main_v25_apply, Read.val_main_cst_7_apply, idx_v23, idx_v27, v19_at,
    Ideal.ofBits_def, Ideal.ofBits_one_f32, one_mul, Ideal.mulf_def, Ideal.hostDivf_def, Ideal.hostUnary_tanh_def]

/-- The clamped norm of the exponential map's row r. -/
private theorem v30_at (x0 : (⟨Cert.ReferenceIdeal.S10000x128, .f32⟩ : BufTy).Contents (Elt Ideal))
    (x1 : (⟨Cert.ReferenceIdeal.S10000x10000, .f32⟩ : BufTy).Contents (Elt Ideal)) (r : Fin 10000) (z : Fin 1) :
    Read.val_main_v30 (F := Ideal) x0 x1 (ValueIdx.ix2 r z)
      = rowNorm (fun j => Read.val_main_v28 (F := Ideal) x0 x1 (ValueIdx.ix2 r j)) := by
  rw [Read.val_main_v30_apply, Read.val_main_call6_v1_apply, Read.val_main_call6_v0_apply, Read.val_main_cst_8_apply,
    Read.val_main_v29_apply, Read.val_main_call5_v2_apply, Read.val_main_call5_v1_apply, Read.val_main_call5_cst_apply]
  simp only [Read.val_main_call5_v0_apply, idx_sum_row5, Ideal.ofBits_def, Ideal.ofBits_zero_f32, zero_add,
    Ideal.mulf_def, Ideal.maximumf_def, Ideal.hostUnary_sqrt_def]
  rw [max_comm]
  rfl

/-- A select on the comparison x > y is the choice on y < x. -/
private theorem select_gt (x y a b : EReal) :
    Scalar.select (FloatOps.cmpf (F := Ideal) (φ := .f32) .ogt x y) a b = if y < x then a else b := by
  rw [Ideal.cmpf_def]
  unfold Scalar.select Ideal.cmp
  by_cases h : y < x <;> simp [h]

/-- The reference program's result, entry (r, j), is the reference's arrangement of the computation on the
    rows of its two arguments. -/
theorem ref_value (x0 : (⟨Cert.ReferenceIdeal.S10000x128, .f32⟩ : BufTy).Contents (Elt Ideal))
    (x1 : (⟨Cert.ReferenceIdeal.S10000x10000, .f32⟩ : BufTy).Contents (Elt Ideal)) (r : Fin 10000) (j : Fin 128) :
    Cert.ReferenceIdeal.Read.val_main_v37 (F := Ideal) x0 x1 (ValueIdx.ix2 r j)
      = hypAggRef (fun r' k => x0 (ValueIdx.ix2 r' k)) (fun r' k => x1 (ValueIdx.ix2 r' k)) r j := by
  rw [Read.val_main_v37_apply, Read.val_main_call7_v0_apply, Read.val_main_v36_apply, Read.val_main_v34_apply,
    Read.val_main_v32_apply, Read.val_main_v31_apply, Read.val_main_v33_apply, Read.val_main_cst_9_apply,
    Read.val_main_v35_apply, Read.val_main_cst_10_apply]
  simp only [idx_c7, idx_v31, v30_at, select_gt, v28_at, v17_at, Ideal.ofBits_def, Ideal.mulf_def, Ideal.hostDivf_def]
  rfl

end Cert.HypAgg.Ref

end
-- ==== Proof.LogMapLaws.lean ====
import proofs.«111283_g60404420051467_cont_9to1_m_1209_15_alg».proof.Proof.Spec

noncomputable section

namespace Cert.HypAgg

open Idealize.ShloMosaic

/-! ### The float constants of the specification, as real numbers -/

/-- The least norm admitted is the positive real 9444733 · 2⁻⁷³. -/
private theorem minNorm_eq : minNorm = ((9444733 * (2 : ℝ) ^ (-73 : ℤ) : ℝ) : EReal) := by
  show Ideal.ieee 8 23 (0x26901D7D#32) = _
  delta Ideal.ieee
  simp [-EReal.coe_mul]

/-- The upper clip bound is 1 − 2⁻²³. -/
private theorem clipHi_eq : clipHi = ((8388607 / 8388608 : ℝ) : EReal) := by
  show Ideal.ieee 8 23 (0x3F7FFFFE#32) = _
  delta Ideal.ieee
  simp [-EReal.coe_mul]; norm_num

/-- The lower clip bound is −(1 − 2⁻²³). -/
private theorem clipLo_eq : clipLo = ((-(8388607 / 8388608) : ℝ) : EReal) := by
  show Ideal.ieee 8 23 (0xBF7FFFFE#32) = _
  delta Ideal.ieee
  simp [-EReal.coe_mul]; norm_num

/-- One half is the real 1/2. -/
private theorem half_eq : half = ((1 / 2 : ℝ) : EReal) := by
  show Ideal.ieee 8 23 (0x3F000000#32) = _
  delta Ideal.ieee
  simp [-EReal.coe_mul]; norm_num

/-! ### The embedding of the reals commutes with max, min and finite sums -/

private theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

private theorem coe_min' (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

private theorem coe_sum' {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ### The clamped norm and the clipped artanh of real arguments -/

/-- The clamped norm of a row of reals is a positive real: the sum of squares is a nonnegative real, its
    root is a real, and the maximum with the positive least norm is positive. -/
private theorem rowNorm_real {n : ℕ} (v : Fin n → EReal) (hv : ∀ k, IsReal (v k)) :
    ∃ r : ℝ, 0 < r ∧ rowNorm v = (r : EReal) := by
  choose f hf using hv
  have hsum : (∑ k, v k * v k) = ((∑ k, f k * f k : ℝ) : EReal) := by
    rw [← coe_sum']
    refine Finset.sum_congr rfl (fun k _ => ?_)
    rw [hf k, EReal.coe_mul]
  have hnn : ¬ (∑ k, f k * f k) < 0 :=
    not_lt.mpr (Finset.sum_nonneg (fun k _ => mul_self_nonneg (f k)))
  refine ⟨max (Real.sqrt (∑ k, f k * f k)) (9444733 * (2 : ℝ) ^ (-73 : ℤ)), ?_, ?_⟩
  · exact lt_max_of_lt_right (by positivity)
  · rw [rowNorm, hsum, Ideal.sqrt_coe, if_neg hnn, minNorm_eq, coe_max']

/-- The clipped artanh of a real is real: the clipped argument t lies in [−(1 − 2⁻²³), 1 − 2⁻²³], so 1 + t
    and 1 − t are positive and both logarithms are real. -/
private theorem artanhClipped_real (n : ℝ) : ∃ a : ℝ, artanhClipped (n : EReal) = (a : EReal) := by
  have hclip : min clipHi (max clipLo (n : EReal))
      = ((min (8388607 / 8388608) (max (-(8388607 / 8388608)) n) : ℝ) : EReal) := by
    rw [clipHi_eq, clipLo_eq, coe_max', coe_min']
  generalize ht : min (8388607 / 8388608 : ℝ) (max (-(8388607 / 8388608)) n) = t at hclip
  have hlo : -(8388607 / 8388608 : ℝ) ≤ t := by
    rw [← ht]; exact le_min (by norm_num) (le_max_left _ _)
  have hhi : t ≤ 8388607 / 8388608 := by
    rw [← ht]; exact min_le_left _ _
  have h1 : ¬ (1 + t ≤ 0) := by
    intro h; linarith
  have h2 : ¬ (1 - t ≤ 0) := by
    intro h; linarith
  have e1 : (1 : EReal) + (t : EReal) = ((1 + t : ℝ) : EReal) := by
    rw [EReal.coe_add, EReal.coe_one]
  have e2 : (1 : EReal) + -(t : EReal) = ((1 - t : ℝ) : EReal) := by
    rw [sub_eq_add_neg, EReal.coe_add, EReal.coe_neg, EReal.coe_one]
  refine ⟨1 / 2 * (Real.log (1 + t) - Real.log (1 - t)), ?_⟩
  rw [artanhClipped, hclip, half_eq, Ideal.log1p, Ideal.log1p, e1, e2, Ideal.log_coe, Ideal.log_coe,
    if_neg h1, if_neg h2, ← EReal.coe_sub, ← EReal.coe_mul]

/-- On a row of real numbers the two associations of the logarithmic map agree: the clamped norm is a positive
    real, so dividing by it commutes with the product by artanh. -/
theorem logMapRowRef_eq (x : Fin 128 → EReal) (hx : ∀ k, IsReal (x k)) : logMapRowRef x = logMapRow x := by
  obtain ⟨n, hn, hrn⟩ := rowNorm_real x hx
  funext k
  rw [logMapRowRef, logMapRow, hrn, Ideal.div_coe hn.ne', Ideal.div_coe hn.ne', mul_assoc,
    mul_comm ((1 / n : ℝ) : EReal)]

/-- The logarithmic map of a row of real numbers is a row of real numbers. -/
theorem logMapRow_isReal (x : Fin 128 → EReal) (hx : ∀ k, IsReal (x k)) (k : Fin 128) : IsReal (logMapRow x k) := by
  obtain ⟨n, hn, hrn⟩ := rowNorm_real x hx
  obtain ⟨a, ha⟩ := artanhClipped_real n
  obtain ⟨r, hr⟩ := hx k
  refine ⟨r * (a * (1 / n)), ?_⟩
  rw [logMapRow, hrn, ha, Ideal.div_coe hn.ne', hr, EReal.coe_mul, EReal.coe_mul]

/-- A row of the aggregation of real matrices is real. -/
theorem aggRow_isReal (a : Fin 10000 → EReal) (xt : Fin 10000 → Fin 128 → EReal) (ha : ∀ k, IsReal (a k))
    (hxt : ∀ k j, IsReal (xt k j)) (j : Fin 128) : IsReal (aggRow a xt j) := by
  choose f hf using ha
  choose g hg using hxt
  refine ⟨∑ k, f k * g k j, ?_⟩
  rw [aggRow, ← coe_sum']
  refine Finset.sum_congr rfl (fun k _ => ?_)
  rw [hf k, hg k j, EReal.coe_mul]

end Cert.HypAgg

end
-- ==== Proof.ExpProjLaws.lean ====
import proofs.«111283_g60404420051467_cont_9to1_m_1209_15_alg».proof.Proof.Spec

noncomputable section

namespace Cert.HypAgg

open Idealize.ShloMosaic

/-! ### The two float constants as rationals -/

/-- The least norm, 1e-15 as a float: 9444733 · 2⁻⁷³. -/
private def εr : ℝ := 9444733 / 2 ^ 73
/-- The radius, 0.996 as a float: 16710107 · 2⁻²⁴. -/
private def cr : ℝ := 16710107 / 2 ^ 24

private lemma minNorm_eq : minNorm = ((εr : ℝ) : EReal) := by
  simp [minNorm, εr, Ideal.ofBits, Ideal.ieee, -EReal.coe_mul]; norm_num

private lemma ballRadius_eq : ballRadius = ((cr : ℝ) : EReal) := by
  simp [ballRadius, cr, Ideal.ofBits, Ideal.ieee, -EReal.coe_mul]; norm_num

private lemma εr_pos : 0 < εr := by unfold εr; positivity

private lemma two_εr_lt_cr : 2 * εr < cr := by unfold εr cr; norm_num

/-! ### Two facts about the hyperbolic tangent -/

private lemma tanh_pos' {x : ℝ} (hx : 0 < x) : 0 < Real.tanh x := by
  rw [Real.tanh_eq]
  have hlt : Real.exp (-x) < Real.exp x := Real.exp_lt_exp.2 (by linarith)
  exact div_pos (by linarith) (add_pos (Real.exp_pos _) (Real.exp_pos _))

/-- tanh x = (1 − e⁻²ˣ) / (1 + e⁻²ˣ) ≤ 1 − e⁻²ˣ ≤ 2x for x ≥ 0, as e⁻²ˣ ≥ 1 − 2x. -/
private lemma tanh_le_two_mul {x : ℝ} (hx : 0 ≤ x) : Real.tanh x ≤ 2 * x := by
  rw [Real.tanh_eq]
  have ha := Real.exp_pos x
  have hb := Real.exp_pos (-x)
  have hab : Real.exp (-x) * Real.exp x = 1 := by rw [← Real.exp_add]; simp
  have hbb : Real.exp (-x) * Real.exp (-x) = Real.exp (-2 * x) := by
    rw [← Real.exp_add]; congr 1; ring
  have h1 : -2 * x + 1 ≤ Real.exp (-2 * x) := Real.add_one_le_exp _
  rw [div_le_iff₀ (add_pos ha hb)]
  have hxb : 0 ≤ x * (Real.exp (-x) * Real.exp (-x)) := mul_nonneg hx (mul_pos hb hb).le
  have key : Real.exp (-x) * (Real.exp x - Real.exp (-x))
      ≤ Real.exp (-x) * (2 * x * (Real.exp x + Real.exp (-x))) := by
    have e1 : Real.exp (-x) * (Real.exp x - Real.exp (-x)) = 1 - Real.exp (-2 * x) := by
      rw [mul_sub, hab, hbb]
    have e2 : Real.exp (-x) * (2 * x * (Real.exp x + Real.exp (-x)))
        = 2 * x * (1 + Real.exp (-2 * x)) := by
      rw [← hab, ← hbb]; ring
    rw [e1, e2]
    rw [hbb] at hxb
    nlinarith
  exact le_of_mul_le_mul_left key hb

/-! ### The statement over the reals -/

/-- The clamped Euclidean norm of a real row. -/
private def rnorm (ε : ℝ) {n : ℕ} (v : Fin n → ℝ) : ℝ := max (Real.sqrt (∑ k, v k * v k)) ε

private lemma real_core (ε c : ℝ) (hε : 0 < ε) (hεc : 2 * ε < c) (v : Fin 128 → ℝ) (j : Fin 128) :
    (if c < rnorm ε (fun k => Real.tanh (rnorm ε v) * v k * (1 / rnorm ε v)) then
        Real.tanh (rnorm ε v) * v j * (1 / rnorm ε v)
          * (1 / rnorm ε (fun k => Real.tanh (rnorm ε v) * v k * (1 / rnorm ε v))) * c
      else Real.tanh (rnorm ε v) * v j * (1 / rnorm ε v))
    = v j * (min (Real.tanh (rnorm ε v)) c * (1 / rnorm ε v)) := by
  have hnpos : 0 < rnorm ε v := lt_of_lt_of_le hε (le_max_right _ _)
  have htpos : 0 < Real.tanh (rnorm ε v) := tanh_pos' hnpos
  have hnv : rnorm ε v = max (Real.sqrt (∑ k, v k * v k)) ε := rfl
  generalize hn : rnorm ε v = n at *
  generalize ht : Real.tanh n = t at *
  generalize hr : Real.sqrt (∑ k, v k * v k) = r at *
  have hrnn : 0 ≤ r := by rw [← hr]; exact Real.sqrt_nonneg _
  -- the norm of the exponential map's value is t · r / n
  have hn' : rnorm ε (fun k => t * v k * (1 / n)) = max (t * (1 / n) * r) ε := by
    unfold rnorm
    congr 1
    have hsum : ∑ k, (t * v k * (1 / n)) * (t * v k * (1 / n))
        = (t * (1 / n)) * (t * (1 / n)) * ∑ k, v k * v k := by
      rw [Finset.mul_sum]; apply Finset.sum_congr rfl; intro k _; ring
    rw [hsum, Real.sqrt_mul (mul_self_nonneg _), Real.sqrt_mul_self (by positivity), hr]
  rw [hn']
  rcases le_or_gt ε r with h | h
  · -- the norm is at least the least norm: n = r and the value's norm is t
    have hnr : n = r := by rw [hnv]; exact max_eq_left h
    have hrpos : 0 < r := lt_of_lt_of_le hε h
    have htr : t * (1 / n) * r = t := by rw [hnr]; field_simp
    rw [htr]
    by_cases htc : c < t
    · have hmax : max t ε = t := max_eq_left (by linarith)
      rw [hmax, if_pos htc, min_eq_right htc.le]
      field_simp
    · have htc' : t ≤ c := not_lt.1 htc
      have hno : ¬ c < max t ε := by rw [not_lt]; exact max_le htc' (by linarith)
      rw [if_neg hno, min_eq_left htc']; ring
  · -- the norm is below the least norm: n = ε, and the value's norm is below tanh ε ≤ 2ε < c
    have hnε : n = ε := by rw [hnv]; exact max_eq_right h.le
    have ht2 : t ≤ 2 * ε := by rw [← ht, hnε]; exact tanh_le_two_mul hε.le
    have h1 : t * (1 / n) * r ≤ t := by
      rw [hnε]
      have hdiv : r / ε ≤ 1 := by rw [div_le_one hε]; exact h.le
      calc t * (1 / ε) * r = t * (r / ε) := by ring
        _ ≤ t * 1 := mul_le_mul_of_nonneg_left hdiv htpos.le
        _ = t := mul_one t
    have hno : ¬ c < max (t * (1 / n) * r) ε := by
      rw [not_lt]; exact max_le (by linarith) (by linarith)
    rw [if_neg hno, min_eq_left (by linarith)]; ring

/-! ### Transport to the extended reals -/

private lemma coe_finset_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

private lemma coe_max' (a b : ℝ) : max (a : EReal) (b : EReal) = ((max a b : ℝ) : EReal) :=
  (EReal.coe_strictMono.monotone.map_max).symm

private lemma coe_min' (a b : ℝ) : min (a : EReal) (b : EReal) = ((min a b : ℝ) : EReal) :=
  (EReal.coe_strictMono.monotone.map_min).symm

private lemma rowNorm_coe {n : ℕ} (v : Fin n → ℝ) :
    rowNorm (fun k => ((v k : ℝ) : EReal)) = ((rnorm εr v : ℝ) : EReal) := by
  have hS : (0 : ℝ) ≤ ∑ k, v k * v k := Finset.sum_nonneg (fun k _ => mul_self_nonneg (v k))
  unfold rowNorm rnorm
  simp only [← EReal.coe_mul]
  rw [coe_finset_sum, Ideal.sqrt_coe, if_neg (not_lt.2 hS), minNorm_eq, coe_max']

private lemma rnorm_pos {n : ℕ} (v : Fin n → ℝ) : 0 < rnorm εr v :=
  lt_of_lt_of_le εr_pos (le_max_right _ _)

private lemma expMap_coe (v : Fin 128 → ℝ) (j : Fin 128) :
    Ideal.div (Ideal.tanh (rowNorm (fun k => ((v k : ℝ) : EReal))) * ((v j : ℝ) : EReal))
        (rowNorm (fun k => ((v k : ℝ) : EReal)))
      = ((Real.tanh (rnorm εr v) * v j * (1 / rnorm εr v) : ℝ) : EReal) := by
  rw [rowNorm_coe, Ideal.tanh_coe, Ideal.div_coe (rnorm_pos v).ne', ← EReal.coe_mul, ← EReal.coe_mul]

private lemma expProjRow_coe (v : Fin 128 → ℝ) (j : Fin 128) :
    expProjRow (fun k => ((v k : ℝ) : EReal)) j
      = ((v j * (min (Real.tanh (rnorm εr v)) cr * (1 / rnorm εr v)) : ℝ) : EReal) := by
  unfold expProjRow
  rw [rowNorm_coe, Ideal.tanh_coe, ballRadius_eq, Ideal.div_coe (rnorm_pos v).ne', coe_min',
    ← EReal.coe_mul, ← EReal.coe_mul]

private lemma expProjRowRef_coe (v : Fin 128 → ℝ) (j : Fin 128) :
    expProjRowRef (fun k => ((v k : ℝ) : EReal)) j
      = (((if cr < rnorm εr (fun k => Real.tanh (rnorm εr v) * v k * (1 / rnorm εr v)) then
            Real.tanh (rnorm εr v) * v j * (1 / rnorm εr v)
              * (1 / rnorm εr (fun k => Real.tanh (rnorm εr v) * v k * (1 / rnorm εr v))) * cr
          else Real.tanh (rnorm εr v) * v j * (1 / rnorm εr v)) : ℝ) : EReal) := by
  unfold expProjRowRef
  simp only [expMap_coe]
  rw [rowNorm_coe, ballRadius_eq]
  simp only [EReal.coe_lt_coe_iff]
  split_ifs with h
  · rw [Ideal.div_coe (rnorm_pos _).ne', ← EReal.coe_mul, ← EReal.coe_mul]
  · rfl

/-- On a row of real numbers, exponential map followed by projection IS the one rescaling: the exponential map's
    value has norm tanh ‖u‖ when ‖u‖ is at least the least norm, and a norm below the radius otherwise. -/
theorem expProjRowRef_eq (u : Fin 128 → EReal) (hu : ∀ j, IsReal (u j)) : expProjRowRef u = expProjRow u := by
  choose v hv using hu
  have hu' : u = fun k => ((v k : ℝ) : EReal) := funext hv
  rw [hu']
  funext j
  rw [expProjRowRef_coe, expProjRow_coe, real_core εr cr εr_pos two_εr_lt_cr]

end Cert.HypAgg

end
-- ==== Proof.SpecLaws.lean ====
import proofs.«111283_g60404420051467_cont_9to1_m_1209_15_alg».proof.Proof.LogMapLaws
import proofs.«111283_g60404420051467_cont_9to1_m_1209_15_alg».proof.Proof.ExpProjLaws

noncomputable section

namespace Cert.HypAgg

open Idealize.ShloMosaic

/-- On real inputs the reference's arrangement of the whole computation is the kernel's. -/
theorem hypAggRef_eq (x : Fin 10000 → Fin 128 → EReal) (adj : Fin 10000 → Fin 10000 → EReal)
    (hx : ∀ r k, IsReal (x r k)) (hadj : ∀ r k, IsReal (adj r k)) : hypAggRef x adj = hypAgg x adj := by
  funext r j
  unfold hypAggRef hypAgg
  have e : (fun k => logMapRowRef (x k)) = fun k => logMapRow (x k) := funext fun k => logMapRowRef_eq (x k) (hx k)
  rw [e]
  exact congrFun (expProjRowRef_eq _ (aggRow_isReal _ _ (hadj r) (fun k j => logMapRow_isReal (x k) (hx k) j))) j

end Cert.HypAgg

end
-- ==== Proof.FiniteInputs.lean ====
import proofs.«111283_g60404420051467_cont_9to1_m_1209_15_alg».proof.Pre_finite_inputs
import proofs.«111283_g60404420051467_cont_9to1_m_1209_15_alg».proof.Proof.Spec
import Idealize.ShloMosaic.Lib.ReduceAll
import Idealize.ShloMosaic.PureOps.Ideal

noncomputable section

namespace Cert.HypAgg

open Idealize.ShloMosaic

/-- The rank-0 shape has exactly one index. -/
private instance subsingleton_scalar_idx : Subsingleton Cert.Pre_finite_inputs.S_.Idx :=
  ⟨fun a b => funext fun d => d.elim0⟩

/-- The bit pattern 0x7F800000 is +∞. -/
private theorem inf_bits : Ideal.ofBits .f32 0x7F800000#32 = (⊤ : EReal) := by
  simp [Ideal.ofBits, Ideal.ieee]

/-- An extended real whose absolute value max x (−x) lies strictly below +∞ is a real number. -/
private theorem isReal_of_abs_lt_top (x : EReal) (h : max x (-x) < ⊤) : IsReal x := by
  induction x using EReal.rec with
  | bot => simp at h
  | coe r => exact ⟨r, rfl⟩
  | top => simp at h

/-- The comparison word |x| < +∞ being 1 says x is a real number. -/
private theorem isReal_of_cmp (x : EReal)
    (h : Ideal.cmp .olt (max x (-x)) (Ideal.ofBits .f32 0x7F800000#32) = 1#1) : IsReal x := by
  rw [inf_bits] at h
  apply isReal_of_abs_lt_top
  by_contra hn
  simp [Ideal.cmp, hn] at h

/-- The precondition says every entry of both arguments is a real number: |x| < +∞ at every index. -/
theorem isReal_of_pre [Cert.Pre_finite_inputs.Facts] (x0 : FVec Ideal Cert.Pre_finite_inputs.S10000x128 .f32)
    (x1 : FVec Ideal Cert.Pre_finite_inputs.S10000x10000 .f32)
    (h : Cert.Pre_finite_inputs.fn (F := Ideal) x0 x1 = fun _ => 1#1) :
    (∀ i, IsReal (x0 i)) ∧ (∀ i, IsReal (x1 i)) := by
  have h0 := congrFun h (fun a => a.elim0 : Cert.Pre_finite_inputs.S_.Idx)
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact isReal_of_cmp _ e
  · have e := Host.reduce_andi_all _ _ _ _ _ hb i
    exact isReal_of_cmp _ e

end Cert.HypAgg

end
-- ==== Proof.lean ====
/-
  The certificate: a hyperbolic graph aggregation — logarithmic map at the origin of the Poincaré ball, dense
  aggregation by the adjacency matrix, exponential map and projection onto the ball of radius 0.996 — as one
  pipelined kernel over forty row blocks of the adjacency matrix, against its plain array program.

  The kernel computes the tangent vectors x · artanh(‖x‖)/‖x‖ once, at the first grid point, into a scratch that
  every point then reads; each point multiplies its 256 rows of the adjacency matrix by the scratch and rescales
  each row u of the product by min(tanh ‖u‖, 0.996) / ‖u‖. The last block overhangs the 10000-row arrays by 240
  rows: the rows it computes there from words nothing names are never written back, and a row of the product reads
  only its own row of the block, so the rows inside the array are the specification's (IdealValuePoint).
  The reference computes tanh ‖u‖ · u / ‖u‖, takes that vector's norm, and projects where it exceeds the radius; on
  finite inputs that norm IS tanh ‖u‖ (or lies below the radius when ‖u‖ is clamped), so the two agree
  (ExpProjLaws); the two associations of the logarithmic map agree because the clamped norm is a positive real
  (LogMapLaws). Finiteness of the inputs is what the precondition says (FiniteInputs).

  The frames: the kernel's body is run once, generic in the float instance (IdealBody / BitsBody), under proof data
  that says nothing of the two cut windows' staging contents (IdealFrame / BitsFrame); the reference's is its run.
  No operation was rewritten by the idealization, so there is nothing to preserve.
-/
import proofs.«111283_g60404420051467_cont_9to1_m_1209_15_alg».proof.Defs
import proofs.«111283_g60404420051467_cont_9to1_m_1209_15_alg».proof.Proof.Gen.Kernel
import proofs.«111283_g60404420051467_cont_9to1_m_1209_15_alg».proof.Proof.Gen.KernelIdeal
import proofs.«111283_g60404420051467_cont_9to1_m_1209_15_alg».proof.Proof.Gen.ReferenceIdeal
import proofs.«111283_g60404420051467_cont_9to1_m_1209_15_alg».proof.Proof.Gen.Pre_finite_inputs
import proofs.«111283_g60404420051467_cont_9to1_m_1209_15_alg».proof.Proof.BitsFrame
import proofs.«111283_g60404420051467_cont_9to1_m_1209_15_alg».proof.Proof.IdealFrame
import proofs.«111283_g60404420051467_cont_9to1_m_1209_15_alg».proof.Proof.IdealValueRun
import proofs.«111283_g60404420051467_cont_9to1_m_1209_15_alg».proof.Proof.RefValue
import proofs.«111283_g60404420051467_cont_9to1_m_1209_15_alg».proof.Proof.SpecLaws
import proofs.«111283_g60404420051467_cont_9to1_m_1209_15_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite arguments both programs end with the specification's function of the arguments in the result: the
    kernel's run names it (`run_value`), the reference's run reads as the reference's arrangement of it (`ref_value`),
    and the two arrangements agree on real inputs (`hypAggRef_eq`). -/
theorem algebraic : Cert.algebraic_KernelIdeal_ReferenceIdeal := by
  intro m ρ m' ρ' hpre hagree
  refine ⟨fun c => Cert.KernelIdeal.Body.result m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  obtain ⟨hx, hadj⟩ := Cert.HypAgg.isReal_of_pre _ _ (hpre c)
  funext i
  obtain ⟨r, j, rfl⟩ : ∃ (r : Fin 10000) (j : Fin 128), i = ValueIdx.ix2 r j := ⟨i 0, i 1, ValueIdx.eq_ix2 i⟩
  rw [Cert.HypAgg.Ref.ref_value, Cert.HypAgg.hypAggRef_eq _ _ (fun r k => hx _) (fun r k => hadj _)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
